-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_arg6 : FVec F S32 .f32) (main_arg7 : FVec F S16384x32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16384x32 .f32 := Host.absf main_arg7
  let main_cst_8 : FVec F S_ .f32 := constant S_ .f32 0x7F800000#32
  let main_v25 : FVec F S16384x32 .f32 := broadcastInDim S16384x32 ![] bcast_S_S16384x32 main_cst_8
  let main_v26 : IVec S16384x32 1 := cmpf .olt main_v24 main_v25
  let main_c_9 : IVec S_ 1 := constantI S_ 1 1#1
  let main_v27 : IVec S_ 1 := (fun x v => Host.reduce IntOp.andi x v reducesTo_S16384x32_S_d0_1 h_S_) main_v26 main_c_9
  let main_v28 : IVec S_ 1 := andi main_v23 main_v27
  main_v28

def fn {F : FTy → Type} [FloatOps F] (main_arg0 : FVec F S16384x256 .f32) (main_arg1 : IVec S524288 32) (main_arg2 : IVec S524288 32) (main_arg3 : FVec F S256x128 .f32) (main_arg4 : FVec F S128 .f32) (main_arg5 : FVec F S128x32 .f32) (main_arg6 : FVec F S32 .f32) (main_arg7 : FVec F S16384x32 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_v13 main_v16
-- ==== Kernel.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S_ : Shape := ⟨0, ![]⟩
abbrev S524288x1 : Shape := ⟨2, ![524288, 1]⟩
abbrev S524288x256 : Shape := ⟨2, ![524288, 256]⟩
abbrev S1x128 : Shape := ⟨2, ![1, 128]⟩
abbrev S16384x128 : Shape := ⟨2, ![16384, 128]⟩
abbrev S2048x256 : Shape := ⟨2, ![2048, 256]⟩
abbrev S2048x128 : Shape := ⟨2, ![2048, 128]⟩
abbrev S524288x128 : Shape := ⟨2, ![524288, 128]⟩
abbrev S1x32 : Shape := ⟨2, ![1, 32]⟩
abbrev S2048x32 : Shape := ⟨2, ![2048, 32]⟩
abbrev S16384x16384 : Shape := ⟨2, ![16384, 16384]⟩
abbrev S1024x32 : Shape := ⟨2, ![1024, 32]⟩
abbrev S2048x1024 : Shape := ⟨2, ![2048, 1024]⟩
abbrev S32x1024 : Shape := ⟨2, ![32, 1024]⟩

abbrev nBuf : Space → Nat
  | .hbm => 41
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x32, .f32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x256, .f32⟩
  | .hbm, ⟨17, _⟩ => ⟨S_, .f32⟩
  | .hbm, ⟨18, _⟩ => ⟨S16384x256, .f32⟩
  | .hbm, ⟨19, _⟩ => ⟨S524288x1, .i32⟩
  | .hbm, ⟨20, _⟩ => ⟨S16384x256, .f32⟩
  | .hbm, ⟨21, _⟩ => ⟨S256x128, .bf16⟩
  | .hbm, ⟨22, _⟩ => ⟨S1x128, .f32⟩
  | .hbm, ⟨23, _⟩ => ⟨S16384x128, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x128, .f32⟩
  | .hbm, ⟨33, _⟩ => ⟨S_, .f32⟩
  | .hbm, ⟨34, _⟩ => ⟨S16384x128, .f32⟩
  | .hbm, ⟨35, _⟩ => ⟨S524288x1, .i32⟩
  | .hbm, ⟨36, _⟩ => ⟨S16384x128, .f32⟩
  | .hbm, ⟨37, _⟩ => ⟨S128x32, .bf16⟩
  | .hbm, ⟨38, _⟩ => ⟨S1x32, .f32⟩
  | .hbm, ⟨39, _⟩ => ⟨S16384x32, .bf16⟩
  | .hbm, ⟨40, _⟩ => ⟨S16384x16384, .f32⟩
  | .local _ .vmem, ⟨0, _⟩ => ⟨S2048x256, .f32⟩
  | .local _ .vmem, ⟨1, _⟩ => ⟨S2048x256, .f32⟩
  | .local _ .vmem, ⟨2, _⟩ => ⟨S256x128, .bf16⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x32, .bf16⟩
  | .local _ .vmem, ⟨9, _⟩ => ⟨S1x32, .f32⟩
  | .local _ .vmem, ⟨10, _⟩ => ⟨S2048x32, .f32⟩
  | .local _ .vmem, ⟨11, _⟩ => ⟨S2048x32, .f32⟩
  | .local _ .vmem, ⟨12, _⟩ => ⟨S2048x32, .bf16⟩
  | .local _ .vmem, ⟨13, _⟩ => ⟨S2048x32, .bf16⟩
  | .local _ .vmem, ⟨14, _⟩ => ⟨S2048x32, .bf16⟩
  | .local _ .vmem, ⟨15, _⟩ => ⟨S2048x32, .bf16⟩
  | .local _ .vmem, ⟨16, _⟩ => ⟨S1024x32, .bf16⟩
  | .local _ .vmem, ⟨17, _⟩ => ⟨S1024x32, .bf16⟩
  | .local _ .vmem, ⟨18, _⟩ => ⟨S2048x1024, .f32⟩
  | .local _ .vmem, ⟨19, _⟩ => ⟨S2048x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S16384x256 : S_.BroadcastsInDim S16384x256 (![] : Fin 0 → Fin S16384x256.rank)
  bitsLt_bf16_f32 : FTy.bits .bf16 < FTy.bits .f32
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  shapeCasts_S32_S1x32 : S32.ShapeCasts S1x32
  shapeCasts_S2048x128_S2048x128 : S2048x128.ShapeCasts S2048x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  packedbf16_S2048x32_S2048x32_0_0 : (Rect.unit (s := S2048x32) ![0, 0] S2048x32.size inb_S2048x32_S2048x32_0_0).PackedRows (EltTy.packing .bf16)
  shapeCasts_S2048x32_S2048x32 : S2048x32.ShapeCasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  inb_S2048x1024_S2048x1024_0_0 : ∀ a, (![0, 0] : Fin 2 → Nat) a + S2048x1024.size a ≤ S2048x1024.size a
  h_S2048x1024 : 0 < S2048x1024.numel
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x32_S2048x32_1_0_0_1_n_n_wf : DotDims.WF S2048x128 S128x32 S2048x32 [1] [0] [0] [1] [] []
  dot_S2048x32_S32x1024_S2048x1024_1_0_0_1_n_n_wf : DotDims.WF S2048x32 S32x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .bf16 = 32 ∨ (Rect.block (s := S128x32) S128x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S16384x32.size a
  hwx1_3 : ∀ i : grid1.Coords, EltTy.bits .f32 = 32 ∨ (Rect.block (s := S16384x32) S2048x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x32.size a ≤ S16384x32.size a
  hwx1_4 : ∀ i : grid1.Coords, EltTy.bits .bf16 = 32 ∨ (Rect.block (s := S16384x32) S2048x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S16384x32.size a
  hwx2_0 : ∀ i : grid2.Coords, EltTy.bits .bf16 = 32 ∨ (Rect.block (s := S16384x32) S2048x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S16384x32.size a
  hwx2_1 : ∀ i : grid2.Coords, EltTy.bits .bf16 = 32 ∨ (Rect.block (s := S16384x32) S1024x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S16384x16384.size a
  hwx2_2 : ∀ i : grid2.Coords, EltTy.bits .f32 = 32 ∨ (Rect.block (s := S16384x16384) S2048x1024.size (cc2_transform_2 i) (hinb2_2 i)).WholeWords (EltTy.packing .f32)

variable [Facts₀]

def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf

abbrev win0_0 : Pipeline.Window sig grid0 :=
  Pipeline.Window.ofSpec (Memref.whole main_v9) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S2048x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2048x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S_ : Shape := ⟨0, ![]⟩
abbrev S524288x1 : Shape := ⟨2, ![524288, 1]⟩
abbrev S524288x256 : Shape := ⟨2, ![524288, 256]⟩
abbrev S16384x128 : Shape := ⟨2, ![16384, 128]⟩
abbrev S1x128 : Shape := ⟨2, ![1, 128]⟩
abbrev S524288x128 : Shape := ⟨2, ![524288, 128]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x32, .f32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x256, .f32⟩
  | .hbm, ⟨17, _⟩ => ⟨S_, .f32⟩
  | .hbm, ⟨18, _⟩ => ⟨S16384x256, .f32⟩
  | .hbm, ⟨19, _⟩ => ⟨S524288x1, .i32⟩
  | .hbm, ⟨20, _⟩ => ⟨S16384x256, .f32⟩
  | .hbm, ⟨21, _⟩ => ⟨S16384x128, .f32⟩
  | .hbm, ⟨22, _⟩ => ⟨S1x128, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S524288, .i32⟩
  | .hbm, ⟨30, _⟩ => ⟨S524288, .i1⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S524288, .i32⟩
  | .hbm, ⟨35, _⟩ => ⟨S524288x1, .i32⟩
  | .hbm, ⟨36, _⟩ => ⟨S524288x128, .f32⟩
  | .hbm, ⟨37, _⟩ => ⟨S_, .f32⟩
  | .hbm, ⟨38, _⟩ => ⟨S16384x128, .f32⟩
  | .hbm, ⟨39, _⟩ => ⟨S524288x1, .i32⟩
  | .hbm, ⟨40, _⟩ => ⟨S16384x128, .f32⟩
  | .hbm, ⟨41, _⟩ => ⟨S16384x32, .f32⟩
  | .hbm, ⟨42, _⟩ => ⟨S1x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S32x16384, .f32⟩
  | .hbm, ⟨47, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x128_S16384x128_1_0_0_1_n_n_wf : DotDims.WF S16384x256 S256x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x32_S16384x32_1_0_0_1_n_n_wf : DotDims.WF S16384x128 S128x32 S16384x32 [1] [0] [0] [1] [] []
  dot_S16384x32_S32x16384_S16384x16384_1_0_0_1_n_n_wf : DotDims.WF S16384x32 S32x16384 S16384x16384 [1] [0] [0] [1] [] []

variable [Facts₀]

def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.KI.D0.lean ====
/-
  The first layer's pallas_call (grid of 8 row blocks), as data: what each window's block is at a grid point, what the
  body leaves in the output's staging buffer as a function of the three input blocks, and the pipeline's proof data
  at given entry contents `V`.

  At point t the body reads rows [2048 t, 2048 t + 2048) of the aggregated features (window 0), the whole bf16 weight
  matrix (window 1) and the whole bias row (window 2) and stores relu (x · w + b) over the whole 2048 × 128 output
  block (window 3): one store over the whole buffer, its payload the body's arithmetic of the three loads.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four accesses: each is the whole of its staging buffer. -/
abbrev rA0 : Rect S2048x256 := Rect.unit (s := S2048x256) ![0, 0] S2048x256.size inb_S2048x256_S2048x256_0_0
abbrev rW0 : Rect S256x128 := Rect.unit (s := S256x128) ![0, 0] S256x128.size inb_S256x128_S256x128_0_0
abbrev rB0 : Rect S1x128 := Rect.unit (s := S1x128) ![0, 0] S1x128.size inb_S1x128_S1x128_0_0
abbrev rO0 : Rect S2048x128 := Rect.unit (s := S2048x128) ![0, 0] S2048x128.size inb_S2048x128_S2048x128_0_0

/-- The output's staging buffer after the body, from the three input blocks: its one store, over the whole buffer. -/
def out0 (x0 : Vec F S2048x256 .f32) (x1 : Vec F S256x128 .bf16) (x2 : Vec F S1x128 .f32) : Vec F S2048x128 .f32 :=
  View.canon [⟨rO0, k0_pay1 (View.ld x0 rA0) (View.ld x1 rW0) (View.ld x2 rB0)⟩]

/-- The proof data of the first layer's pipeline on core `c`: the arrays as the region finds them; after the body each
    input's buffer still at its block and the output's at `out0` of the input blocks; every array whole; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

end Cert.KernelIdeal.Hand

end
-- ==== Proof.KI.D1.lean ====
/-
  The second layer's pallas_call (grid of 8 row blocks), as data. At point t the body reads rows
  [2048 t, 2048 t + 2048) of the aggregated hidden features (window 0), the whole bf16 weight matrix (window 1), the
  whole bias row (window 2) and the same rows of the dropout mask (window 3), and stores (x · w + b) ⊙ mask, narrowed
  to bf16, over the whole 2048 × 32 output block (window 4).
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each is the whole of its staging buffer (the mask's and the output's have one shape). -/
abbrev rA1 : Rect S2048x128 := Rect.unit (s := S2048x128) ![0, 0] S2048x128.size inb_S2048x128_S2048x128_0_0
abbrev rW1 : Rect S128x32 := Rect.unit (s := S128x32) ![0, 0] S128x32.size inb_S128x32_S128x32_0_0
abbrev rB1 : Rect S1x32 := Rect.unit (s := S1x32) ![0, 0] S1x32.size inb_S1x32_S1x32_0_0
abbrev rD1 : Rect S2048x32 := Rect.unit (s := S2048x32) ![0, 0] S2048x32.size inb_S2048x32_S2048x32_0_0

/-- The output's staging buffer after the body, from the four input blocks: its one store, over the whole buffer. -/
def out1 (x0 : Vec F S2048x128 .f32) (x1 : Vec F S128x32 .bf16) (x2 : Vec F S1x32 .f32) (x3 : Vec F S2048x32 .f32) :
    Vec F S2048x32 .bf16 :=
  View.canon [⟨rD1, k1_pay1 (View.ld x0 rA1) (View.ld x1 rW1) (View.ld x2 rB1) (View.ld x3 rD1)⟩]

/-- The proof data of the second layer's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

end Cert.KernelIdeal.Hand

end
-- ==== Proof.KI.D2.lean ====
/-
  The decoder's pallas_call (grid 8 × 16), as data. At point (i, j) the body reads rows [2048 i, 2048 i + 2048) of the
  embedding through window 0 and rows [1024 j, 1024 j + 1024) of the SAME embedding array through window 1, and stores
  the 2048 × 1024 tile of inner products (left rows against right rows) over the whole output block (window 2).

  The two input windows stage one array. Neither writes it, so the pipeline may hold it twice, each window at half of
  the whole: the proof data's shares are the two complementary halves.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's three accesses: each is the whole of its staging buffer. -/
abbrev rL2 : Rect S2048x32 := Rect.unit (s := S2048x32) ![0, 0] S2048x32.size inb_S2048x32_S2048x32_0_0
abbrev rR2 : Rect S1024x32 := Rect.unit (s := S1024x32) ![0, 0] S1024x32.size inb_S1024x32_S1024x32_0_0
abbrev rO2 : Rect S2048x1024 := Rect.unit (s := S2048x1024) ![0, 0] S2048x1024.size inb_S2048x1024_S2048x1024_0_0

/-- The output's staging buffer after the body, from the two input blocks: its one store, over the whole buffer. -/
def out2 (x0 : Vec F S2048x32 .bf16) (x1 : Vec F S1024x32 .bf16) : Vec F S2048x1024 .f32 :=
  View.canon [⟨rO2, k2_pay1 (View.ld x0 rL2) (View.ld x1 rR2)⟩]

/-- The two complementary halves of the whole share: what each of the two windows on the embedding array holds it at. -/
def qL : PosShare TreeShare := ⟨Share.of TreeShare.leftHalf, by decide⟩
def qR : PosShare TreeShare := ⟨Share.of TreeShare.rightHalf, by decide⟩

/-- The proof data of the decoder's pipeline on core `c`: the left window holds the embedding at one half, the right
    window at the other; the output array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q w := match w with
    | ⟨0, _⟩ => qL
    | ⟨1, _⟩ => qR
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2 (iblk2 V c 0 t) (iblk2 V c 1 t) := by dsimp only [dat2]

theorem q2_0 (c : Dev nD) : (dat2 V c).q 0 = qL := by dsimp only [dat2]
theorem q2_1 (c : Dev nD) : (dat2 V c).q 1 = qR := by dsimp only [dat2]

end Cert.KernelIdeal.Hand

end
-- ==== Proof.KI.Family.lean ====
/-
  The three pipelines' proof data as ONE family over the pipeline index, each at its own region's entry contents, and
  the small fixed choices every region shares: no variant, no level assigned (no core owes another anything), and what
  rides beside the buffers through every segment — the core's generator register at some state and its debt, at nothing.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.Gen.KernelIdeal.Regions
import proofs.«128521_j20864951123973_1_alg».proof.Proof.KI.D0
import proofs.«128521_j20864951123973_1_alg».proof.Proof.KI.D1
import proofs.«128521_j20864951123973_1_alg».proof.Proof.KI.D2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents read at the TensorCore's references: what a region's proof data take. -/
abbrev ofVal (W : Dev nD → Valuation τ sig (Elt F)) : (c : Dev nD) → (b : Ref sig .tc) → Buf (Elt F) ((c : Thread nD τ).loc b) :=
  fun c b => W c b

variable (Wa Wb Wc : Dev nD → Valuation τ sig (Elt F))

/-- Every pipeline's proof data, each at its region's entry contents: a literal match on the pipeline. -/
def pdats : (p : Fin 3) → (c : Dev nD) → Dat τ (Elt F) Unit ℕ (UR sig nD τ) ℕ (Pipeline.pin (pcfgs (F := F)) adm p) c
  | ⟨0, _⟩ => fun c => dat0 (ofVal Wa) c
  | ⟨1, _⟩ => fun c => dat1 (ofVal Wb) c
  | ⟨2, _⟩ => fun c => dat2 (ofVal Wc) c

abbrev 𝒱₀ : Variants := Variants.none
abbrev L : GSem nD τ sig → Finset Unit := fun _ => ∅
abbrev lv : GSem nD τ sig → Unit → ℕ := fun _ _ => 0

/-- Beside the buffers: the generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.B0.lean ====
/-
  The body of pallas_call 0 meets the pipeline's obligation at every grid point: each input window's staging
  buffer holds its block of the array whether fetched at the point or not; the body's loads and its one store over
  the whole output buffer run to the output at the store's payload of the input blocks; the invariant passes through.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.D0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-! ## What the body finds in each input window's buffer

An input window's current staging buffer holds that window's block of the array at every grid point, whether the
pipeline fetched it at that point or not: the body leaves every input buffer as it found it, and a window that is
not fetched at a point has not moved its block index since the point before. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's one store covers the output buffer -/

theorem cover0 (p : Vec F S2048x128 .f32) (y : S2048x128.Idx) :
    ∃ pc ∈ ([⟨rO0, p⟩] : List (View.Piece (Elt F) S2048x128 .f32)), y ∈ pc.1.set :=
  View.cover_of_tiled [⟨rO0, p⟩] S2048x128.size (by rfl) y

/-! ## The body's triple

On whole staging memrefs, the three inputs' reading `x0`, `x1`, `x2` and the output's holding anything, the body
runs to any continuation that accepts the inputs as they were and the output at `out0 x0 x1 x2`: three loads of the
inputs, one load of the output's buffer (its value unused), one store over the whole output buffer. -/

set_option maxHeartbeats 1000000 in
theorem sound_kernel0 (c : Dev nD) (E : Set ℕ) (i : grid0.Coords)
    (arg1 : Memref sig .tc .vmem S2048x256 .f32) (harg1 : arg1.IsWhole)
    (arg2 : Memref sig .tc .vmem S256x128 .bf16) (harg2 : arg2.IsWhole)
    (arg3 : Memref sig .tc .vmem S1x128 .f32) (harg3 : arg3.IsWhole)
    (arg4 : Memref sig .tc .vmem S2048x128 .f32) (harg4 : arg4.IsWhole)
    (x0 : Vec F S2048x256 .f32) (x1 : Vec F S256x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0 x0 x1 x2)) -∗ K ⟨⟩))
      ⊢ wp frame (wpE (defs₀ (F := F)) Variants.none c none) E
          (cc0__layer0_kernel i arg1 harg1 arg2 harg2 arg3 harg3 arg4 harg4) K := by
  simp only [cc0__layer0_kernel_eq_skeleton]; unfold cc0__layer0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## The obligation at a grid point -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it wants back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  The first layer's pallas_call as a segment of @main over the thread state "every unscoped buffer held at a valuation,
  the generator register at some state and nothing owed beside it".

  Entering, the four windows' arrays (pairwise distinct whole buffers) are cut out of the held set at the entry
  contents and the remainder steps around the region untouched; the generator register goes into the pipeline's
  invariant together with the scoped buffers no window stages, and comes back out of it at the last point. Leaving, the
  arrays at what the write-backs left in them are put back beside the remainder: that is the held set at any contents
  that agree with those arrays on the windows and with the entry contents elsewhere.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.Family
import proofs.«128521_j20864951123973_1_alg».proof.Proof.KI.B0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wa Wb Wc Wp : Dev nD → Valuation τ sig (Elt F))

-- the library's entry and exit lemmas speak of the pinned configuration `pin pcs a p`; they meet this program's
-- configuration only when unification may unfold definitions inside a metavariable's type
set_option backward.isDefEq.respectTransparency.types false in
/-- Region 0: entered with every unscoped buffer at `Wa`, left with them at `Wp`, where `Wp` is the windows' arrays
    after the last write-back (`hF`) and `Wa` off the windows (`hrest`). -/
def reg0
    (hF : ∀ c w, (dat0 (ofVal Wa) c).arrAt w cfg0.N = ofVal Wp c (Pipeline.arrRef spec0 w))
    (hrest : ∀ c b, b ∉ Finset.univ.image (Pipeline.arrRef spec0) → ofVal Wp c b = ofVal Wa c b) :
    Pipeline.RegionSeg (pcfgs (F := F)) adm (pdats Wa Wb Wc) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ofVal Wa) c).loose
  hwaits := Pipeline.hwaits_of_owed_zero _ _ _ _ L lv 0 fun _ _ => rfl
  pre c := iprop(StableHlo.held (c : Thread nD τ) (Pipeline.ucRefs τ sig) (Wa c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec0 c (fun b => Wa c b)
  hentry c := by
    -- the held set, read as the library's unscoped buffers, is the windows' arrays at the entry contents and the remainder
    have hcut := Pipeline.arrays_of_unscopedBufs (p := 0) (pcfgs (F := F)) adm (pdats Wa Wb Wc) launch0.win launch0.arr_whole c
      ((pdats Wa Wb Wc 0 c).share_full fun _ => rfl) (fun b => Wa c b) (fun _ => rfl)
    rw [Pipeline.unscopedBufs_held] at hcut
    -- this pallas_call prefetches no table: the tables' conjunct is a product over nothing
    have hnotab : (Pipeline.prefHeld (pcfgs (F := F) 0).pre c (fun _ => fullShare) (adm (F := F) 0).1 : sProp 𝕄) = BI.emp := by
      unfold Pipeline.prefHeld
      rw [show (Finset.univ : Finset (Fin 0)) = ∅ from rfl, BI.bigSep_empty]
    rw [Pipeline.ownSems0_none, hnotab]
    iintro ⟨⟨Hheld, Hrng, Hdebt⟩, -, -⟩
    ihave Hparts := hcut $$ Hheld
    icases Hparts with ⟨Harr, Hoff⟩
    imodintro
    isplitl [Harr]; · iexact Harr
    isplitr; · iempintro
    isplitr [Hrng Hoff]
    · -- nothing is owed, and any recorded set lies within the bound (which is everything)
      unfold Pipeline.Dat.owesAt Pipeline.owesWithin
      icases Hdebt with ⟨%S, Hdebt⟩
      iexists S
      isplitr; · ipureintro; intro _ _; exact Or.inl trivial
      iexact Hdebt
    isplitl [Hrng]; · iexact Hrng
    iexact Hoff
  hin c := by
    -- the invariant is the scoped buffers no window stages beside the generator register
    rw [show (pdats Wa Wb Wc 0 c).Φ 0 = Pipeline.ΦA spec0 c from rfl]
    unfold Pipeline.ΦA
    iintro ⟨Hrng, -, Hscoped⟩
    isplitr [Hrng]; · iexact Hscoped
    iexact Hrng
  hout c := by
    rw [Pipeline.ownSems0_none, show (pdats Wa Wb Wc 0 c).Φ (Fin.last _) = Pipeline.ΦA spec0 c from rfl]
    unfold Pipeline.ΦA
    iintro ⟨Hscoped, Hrng⟩
    isplitl [Hrng]; · iexact Hrng
    isplitr; · iempintro
    iexact Hscoped
  hexit c := by
    -- the arrays after the last write-back and the remainder at the entry contents are the unscoped buffers at `Wp`
    have hglue := Pipeline.unscopedBufs_of_arrays (p := 0) (pcfgs (F := F)) adm (Ix := Unit) (Name := ℕ) (U := UR sig nD τ) (Lvl := ℕ)
      launch0.win launch0.arr_whole c (pdats Wa Wb Wc) ((pdats Wa Wb Wc 0 c).share_full fun _ => rfl)
      (fun b => Wa c b) (fun b => Wp c b) ((pdats Wa Wb Wc 0 c).arrAt · cfg0.N) (hF c) (hrest c)
    rw [Pipeline.unscopedBufs_held] at hglue
    iintro ⟨Harr, Hdebt, Hrng, Hoff⟩
    imodintro
    isplitr [Hdebt Hrng]
    · iapply hglue
      isplitl [Harr]; · iexact Harr
      iexact Hoff
    isplitl [Hrng]; · iexact Hrng
    unfold Pipeline.Dat.owesAt Pipeline.owesWithin
    icases Hdebt with ⟨%S, -, Hdebt⟩
    iexists S
    iexact Hdebt

theorem reg0_pre (hF) (hrest) (c : Dev nD) :
    (reg0 Wa Wb Wc Wp hF hrest).pre c = iprop(StableHlo.held (c : Thread nD τ) (Pipeline.ucRefs τ sig) (Wa c) ∗ R c) := rfl

theorem reg0_post (hF) (hrest) (c : Dev nD) :
    (reg0 Wa Wb Wc Wp hF hrest).post c = iprop(StableHlo.held (c : Thread nD τ) (Pipeline.ucRefs τ sig) (Wp c) ∗ R c) := rfl

end Cert.KernelIdeal.Hand

end
-- ==== Proof.KI.B1.lean ====
/-
  The body of pallas_call 1 meets the pipeline's obligation at every grid point: each input window's staging
  buffer holds its block of the array whether fetched at the point or not; the body's loads and its one store over
  the whole output buffer run to the output at the store's payload of the input blocks; the invariant passes through.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.D1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-! ## What the body finds in each input window's buffer

Each of the four input windows' current staging buffers holds that window's block of its array at every grid
point, fetched there or not: the body leaves the input buffers as found, and an unfetched window's block index
has not moved since the point before. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's one store covers the output buffer -/

theorem cover1 (p : Vec F S2048x32 .bf16) (y : S2048x32.Idx) :
    ∃ pc ∈ ([⟨rD1, p⟩] : List (View.Piece (Elt F) S2048x32 .bf16)), y ∈ pc.1.set :=
  View.cover_of_tiled [⟨rD1, p⟩] S2048x32.size (by rfl) y

/-! ## The body's triple

On whole staging memrefs, the four inputs' reading `x0` … `x3` and the output's holding anything, the body runs to
any continuation that accepts the inputs as they were and the output at `out1 x0 x1 x2 x3`: four loads of the
inputs, one load of the output's buffer (its value unused), one store over the whole output buffer. -/

set_option maxHeartbeats 1000000 in
theorem sound_kernel1 (c : Dev nD) (E : Set ℕ) (i : grid1.Coords)
    (arg1 : Memref sig .tc .vmem S2048x128 .f32) (harg1 : arg1.IsWhole)
    (arg2 : Memref sig .tc .vmem S128x32 .bf16) (harg2 : arg2.IsWhole)
    (arg3 : Memref sig .tc .vmem S1x32 .f32) (harg3 : arg3.IsWhole)
    (arg4 : Memref sig .tc .vmem S2048x32 .f32) (harg4 : arg4.IsWhole)
    (arg5 : Memref sig .tc .vmem S2048x32 .bf16) (harg5 : arg5.IsWhole)
    (x0 : Vec F S2048x128 .f32) (x1 : Vec F S128x32 .bf16) (x2 : Vec F S1x32 .f32) (x3 : Vec F S2048x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1 x0 x1 x2 x3)) -∗ K ⟨⟩))
      ⊢ wp frame (wpE (defs₀ (F := F)) Variants.none c none) E
          (cc1__layer1_kernel i arg1 harg1 arg2 harg2 arg3 harg3 arg4 harg4 arg5 harg5) K := by
  simp only [cc1__layer1_kernel_eq_skeleton]; unfold cc1__layer1_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The obligation at a grid point -/

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it wants back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the
    core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
/-
  The second layer's pallas_call as a segment of @main over the thread state "every unscoped buffer held at a valuation,
  the generator register at some state and nothing owed beside it".

  Entering, the five windows' arrays (pairwise distinct whole buffers) are cut out of the held set at the entry
  contents and the remainder steps around the region untouched; the generator register goes into the pipeline's
  invariant together with the scoped buffers no window stages, and comes back out of it at the last point. Leaving, the
  arrays at what the write-backs left in them are put back beside the remainder: that is the held set at any contents
  that agree with those arrays on the windows and with the entry contents elsewhere.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.Family
import proofs.«128521_j20864951123973_1_alg».proof.Proof.KI.B1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wa Wb Wc Wp : Dev nD → Valuation τ sig (Elt F))

-- the library's entry and exit lemmas speak of the pinned configuration `pin pcs a p`; they meet this program's
-- configuration only when unification may unfold definitions inside a metavariable's type
set_option backward.isDefEq.respectTransparency.types false in
/-- Region 1: entered with every unscoped buffer at `Wb`, left with them at `Wp`, where `Wp` is the windows' arrays
    after the last write-back (`hF`) and `Wb` off the windows (`hrest`). -/
def reg1
    (hF : ∀ c w, (dat1 (ofVal Wb) c).arrAt w cfg1.N = ofVal Wp c (Pipeline.arrRef spec1 w))
    (hrest : ∀ c b, b ∉ Finset.univ.image (Pipeline.arrRef spec1) → ofVal Wp c b = ofVal Wb c b) :
    Pipeline.RegionSeg (pcfgs (F := F)) adm (pdats Wa Wb Wc) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ofVal Wb) c).loose
  hwaits := Pipeline.hwaits_of_owed_zero _ _ _ _ L lv 1 fun _ _ => rfl
  pre c := iprop(StableHlo.held (c : Thread nD τ) (Pipeline.ucRefs τ sig) (Wb c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec1 c (fun b => Wb c b)
  hentry c := by
    -- the held set, read as the library's unscoped buffers, is the windows' arrays at the entry contents and the remainder
    have hcut := Pipeline.arrays_of_unscopedBufs (p := 1) (pcfgs (F := F)) adm (pdats Wa Wb Wc) launch1.win launch1.arr_whole c
      ((pdats Wa Wb Wc 1 c).share_full fun _ => rfl) (fun b => Wb c b) (fun _ => rfl)
    rw [Pipeline.unscopedBufs_held] at hcut
    -- this pallas_call prefetches no table: the tables' conjunct is a product over nothing
    have hnotab : (Pipeline.prefHeld (pcfgs (F := F) 1).pre c (fun _ => fullShare) (adm (F := F) 1).1 : sProp 𝕄) = BI.emp := by
      unfold Pipeline.prefHeld
      rw [show (Finset.univ : Finset (Fin 0)) = ∅ from rfl, BI.bigSep_empty]
    rw [Pipeline.ownSems0_none, hnotab]
    iintro ⟨⟨Hheld, Hrng, Hdebt⟩, -, -⟩
    ihave Hparts := hcut $$ Hheld
    icases Hparts with ⟨Harr, Hoff⟩
    imodintro
    isplitl [Harr]; · iexact Harr
    isplitr; · iempintro
    isplitr [Hrng Hoff]
    · -- nothing is owed, and any recorded set lies within the bound (which is everything)
      unfold Pipeline.Dat.owesAt Pipeline.owesWithin
      icases Hdebt with ⟨%S, Hdebt⟩
      iexists S
      isplitr; · ipureintro; intro _ _; exact Or.inl trivial
      iexact Hdebt
    isplitl [Hrng]; · iexact Hrng
    iexact Hoff
  hin c := by
    -- the invariant is the scoped buffers no window stages beside the generator register
    rw [show (pdats Wa Wb Wc 1 c).Φ 0 = Pipeline.ΦA spec1 c from rfl]
    unfold Pipeline.ΦA
    iintro ⟨Hrng, -, Hscoped⟩
    isplitr [Hrng]; · iexact Hscoped
    iexact Hrng
  hout c := by
    rw [Pipeline.ownSems0_none, show (pdats Wa Wb Wc 1 c).Φ (Fin.last _) = Pipeline.ΦA spec1 c from rfl]
    unfold Pipeline.ΦA
    iintro ⟨Hscoped, Hrng⟩
    isplitl [Hrng]; · iexact Hrng
    isplitr; · iempintro
    iexact Hscoped
  hexit c := by
    -- the arrays after the last write-back and the remainder at the entry contents are the unscoped buffers at `Wp`
    have hglue := Pipeline.unscopedBufs_of_arrays (p := 1) (pcfgs (F := F)) adm (Ix := Unit) (Name := ℕ) (U := UR sig nD τ) (Lvl := ℕ)
      launch1.win launch1.arr_whole c (pdats Wa Wb Wc) ((pdats Wa Wb Wc 1 c).share_full fun _ => rfl)
      (fun b => Wb c b) (fun b => Wp c b) ((pdats Wa Wb Wc 1 c).arrAt · cfg1.N) (hF c) (hrest c)
    rw [Pipeline.unscopedBufs_held] at hglue
    iintro ⟨Harr, Hdebt, Hrng, Hoff⟩
    imodintro
    isplitr [Hdebt Hrng]
    · iapply hglue
      isplitl [Harr]; · iexact Harr
      iexact Hoff
    isplitl [Hrng]; · iexact Hrng
    unfold Pipeline.Dat.owesAt Pipeline.owesWithin
    icases Hdebt with ⟨%S, -, Hdebt⟩
    iexists S
    iexact Hdebt

theorem reg1_pre (hF) (hrest) (c : Dev nD) :
    (reg1 Wa Wb Wc Wp hF hrest).pre c = iprop(StableHlo.held (c : Thread nD τ) (Pipeline.ucRefs τ sig) (Wb c) ∗ R c) := rfl

theorem reg1_post (hF) (hrest) (c : Dev nD) :
    (reg1 Wa Wb Wc Wp hF hrest).post c = iprop(StableHlo.held (c : Thread nD τ) (Pipeline.ucRefs τ sig) (Wp c) ∗ R c) := rfl

end Cert.KernelIdeal.Hand

end
-- ==== Proof.KI.B2.lean ====
/-
  The body of pallas_call 2 meets the pipeline's obligation at every grid point: each input window's staging
  buffer holds its block of the array whether fetched at the point or not; the body's loads and its one store over
  the whole output buffer run to the output at the store's payload of the input blocks; the invariant passes through.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.D2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered
variable (V : (c : Dev nD) → (b : Ref sig .tc) → Buf (Elt F) ((c : Thread nD τ).loc b))

/-! ## What the body finds in each input window's buffer

Both input windows read the same array, the left one a 2048-row block that moves once every sixteen points, the right
one a 1024-row block that moves at every point. Either window's current staging buffer holds its block of the array
at every grid point, fetched there or not: the body leaves the input buffers as found, and an unfetched window's
block index has not moved since the point before. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's one store covers the output buffer -/

theorem cover2 (p : Vec F S2048x1024 .f32) (y : S2048x1024.Idx) :
    ∃ pc ∈ ([⟨rO2, p⟩] : List (View.Piece (Elt F) S2048x1024 .f32)), y ∈ pc.1.set :=
  View.cover_of_tiled [⟨rO2, p⟩] S2048x1024.size (by rfl) y

/-! ## The body's triple

On whole staging memrefs, the two inputs' reading `x0`, `x1` and the output's holding anything, the body runs to any
continuation that accepts the inputs as they were and the output at `out2 x0 x1`: two loads of the inputs, one load
of the output's buffer (its value unused), one store over the whole output buffer. -/

set_option maxHeartbeats 1000000 in
theorem sound_kernel2 (c : Dev nD) (E : Set ℕ) (i : grid2.Coords)
    (arg2 : Memref sig .tc .vmem S2048x32 .bf16) (harg2 : arg2.IsWhole)
    (arg3 : Memref sig .tc .vmem S1024x32 .bf16) (harg3 : arg3.IsWhole)
    (arg4 : Memref sig .tc .vmem S2048x1024 .f32) (harg4 : arg4.IsWhole)
    (x0 : Vec F S2048x32 .bf16) (x1 : Vec F S1024x32 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2 x0 x1)) -∗ K ⟨⟩))
      ⊢ wp frame (wpE (defs₀ (F := F)) Variants.none c none) E
          (cc2__outer_kernel i arg2 harg2 arg3 harg3 arg4 harg4) K := by
  simp only [cc2__outer_kernel_eq_skeleton]; unfold cc2__outer_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The obligation at a grid point -/

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it wants back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the
    core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
/-
  pallas_call 2 (the decoder, grid 8 × 16) as a segment of @main over the thread state "every unscoped buffer at a
  valuation".

  Two of its three windows stage ONE array, the embedding: window 0 reads it by blocks of 2048 rows, window 1 by blocks
  of 1024 rows. The arrays behind the windows are therefore two buffers, not three. Neither input window writes, so the
  embedding's whole share is dealt to them as its two complementary halves on entry and the halves, at unchanged
  contents, compose to the whole again on exit; the output array is its window's alone, whole.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.KI.Family
import proofs.«128521_j20864951123973_1_alg».proof.Proof.KI.B2
import Idealize.SL.RA.TreeShare
import Idealize.ShloMosaic.Rules.PointsTo
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wa Wb Wc Wp : Dev nD → Valuation τ sig (Elt F))

/-- The two halves of the whole share compose to it. -/
theorem halves_compose : fullShare ∈ PCS.op qL qR := by
  have h := PosShare.mem_left_op_right fullShare
  rwa [show fullShare.left = qL from Subtype.ext TreeShare.top_left, show fullShare.right = qR from Subtype.ext TreeShare.top_right] at h

/-- The buffers behind the three windows' arrays are two: the embedding (windows 0 and 1) and the output (window 2). -/
theorem arrImage2 : Finset.univ.image (Pipeline.arrRef spec2) = {main_v25, main_v26} := by decide

/-- The distinct buffers behind the windows' arrays, each whole at the full share: the embedding beside the output. -/
theorem arrBufs2_eq (c : Dev nD) (V : (b : Ref sig .tc) → Buf (Elt F) ((c : Thread nD τ).loc b)) :
    (Pipeline.arrBufs spec2 c V : sProp 𝕄)
      = iprop((((c : Thread nD τ).loc main_v25) ↦{fullShare} V main_v25) ∗ (((c : Thread nD τ).loc main_v26) ↦{fullShare} V main_v26)) := by
  unfold Pipeline.arrBufs
  rw [arrImage2, bigSep_insert (by decide), bigSep_singleton]
  rfl

/-- The pipeline's arrays window by window: each array is a whole buffer, the embedding held by window 0 at the left
    half and by window 1 at the right half, the output by window 2 whole. -/
theorem arrays2_eq (V : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 V c).arrays G : sProp 𝕄)
      = iprop((((c : Thread nD τ).loc main_v25) ↦{qL} G 0) ∗ (((c : Thread nD τ).loc main_v25) ↦{qR} G 1)
          ∗ (((c : Thread nD τ).loc main_v26) ↦{fullShare} G 2)) := by
  unfold Pipeline.Dat.arrays
  rw [bigSep_W2, (arr_whole2 0).set_eq_univ, (arr_whole2 2).set_eq_univ]
  rfl

/-- ENTRY. Every unscoped buffer at `Wc` is the pipeline's arrays at their entry contents beside the unscoped buffers no
    window stages: the embedding's whole share splits into the two windows' halves, both at the contents `Wc` has. -/
theorem arrays_entry2 (c : Dev nD) :
    (unscopedBufs c (ofVal Wc c) : sProp 𝕄) ⊢ iprop((dat2 (ofVal Wc) c).arrays ((dat2 (ofVal Wc) c).arrAt · 0) ∗ Pipeline.unscopedRest spec2 c (ofVal Wc c)) := by
  rw [Pipeline.unscopedBufs_split₀ (fun _ : Unit => cfg2) () winFacts₀2.arr_unscoped c (ofVal Wc c)]
  refine sep_mono ?_ .rfl
  rw [show (Pipeline.arrBufs cfg2.spec c (ofVal Wc c) : sProp 𝕄) = Pipeline.arrBufs spec2 c (ofVal Wc c) from rfl,
    arrBufs2_eq, arrays2_eq]
  exact (sep_mono (pointsTo_share halves_compose).1 .rfl).trans sep_assoc.1

/-- The unscoped buffers no window stages hold under `Wp` what they hold under `Wc`. -/
theorem unscopedRest2_congr (hrest : ∀ c b, b ∉ Finset.univ.image (Pipeline.arrRef spec2) → ofVal Wp c b = ofVal Wc c b) (c : Dev nD) :
    (Pipeline.unscopedRest spec2 c (ofVal Wc c) : sProp 𝕄) = Pipeline.unscopedRest spec2 c (ofVal Wp c) := by
  unfold Pipeline.unscopedRest
  exact bigSep_congr fun b hb => by rw [hrest c b (Finset.mem_sdiff.mp hb).2]

/-- EXIT. The arrays at their final contents beside the bypassed buffers are every unscoped buffer at `Wp`: both halves
    of the embedding come back at the contents `Wp` has of it and compose to the whole; the output comes back whole at
    its written-back contents, `Wp`'s by `hF`. -/
theorem arrays_exit2 (hF : ∀ c w, (dat2 (ofVal Wc) c).arrAt w cfg2.N = ofVal Wp c (Pipeline.arrRef spec2 w))
    (hrest : ∀ c b, b ∉ Finset.univ.image (Pipeline.arrRef spec2) → ofVal Wp c b = ofVal Wc c b) (c : Dev nD) :
    iprop((dat2 (ofVal Wc) c).arrays ((dat2 (ofVal Wc) c).arrAt · cfg2.N) ∗ Pipeline.unscopedRest spec2 c (ofVal Wc c))
      ⊢ (unscopedBufs c (ofVal Wp c) : sProp 𝕄) := by
  rw [Pipeline.unscopedBufs_split₀ (fun _ : Unit => cfg2) () winFacts₀2.arr_unscoped c (ofVal Wp c),
    unscopedRest2_congr Wc Wp hrest c]
  refine sep_mono ?_ .rfl
  rw [show (Pipeline.arrBufs cfg2.spec c (ofVal Wp c) : sProp 𝕄) = Pipeline.arrBufs spec2 c (ofVal Wp c) from rfl,
    arrBufs2_eq, arrays2_eq, hF c 0, hF c 1, hF c 2]
  exact sep_assoc.2.trans (sep_mono (pointsTo_share halves_compose).2 .rfl)

/-- The array lemmas over the thread state: every unscoped buffer held at a valuation is the library's `unscopedBufs`. -/
theorem held_entry2 (c : Dev nD) :
    (StableHlo.held (c : Thread nD τ) (Pipeline.ucRefs τ sig) (Wc c) : sProp 𝕄)
      ⊢ iprop((dat2 (ofVal Wc) c).arrays ((dat2 (ofVal Wc) c).arrAt · 0) ∗ Pipeline.unscopedRest spec2 c (ofVal Wc c)) := by
  rw [← Pipeline.unscopedBufs_held]; exact arrays_entry2 Wc c

/-- The same on exit. -/
theorem held_exit2 (hF : ∀ c w, (dat2 (ofVal Wc) c).arrAt w cfg2.N = ofVal Wp c (Pipeline.arrRef spec2 w))
    (hrest : ∀ c b, b ∉ Finset.univ.image (Pipeline.arrRef spec2) → ofVal Wp c b = ofVal Wc c b) (c : Dev nD) :
    iprop((dat2 (ofVal Wc) c).arrays ((dat2 (ofVal Wc) c).arrAt · cfg2.N) ∗ Pipeline.unscopedRest spec2 c (ofVal Wc c))
      ⊢ (StableHlo.held (c : Thread nD τ) (Pipeline.ucRefs τ sig) (Wp c) : sProp 𝕄) := by
  rw [← Pipeline.unscopedBufs_held]; exact arrays_exit2 Wc Wp hF hrest c

/-- A core that owes nothing owes, at any point, what the decoder's proof data say it owes: nothing, its recorded
    pairs unconstrained. -/
theorem debt_in2 (c : Dev nD) (t : Fin (cfg2.N + 1)) :
    (iprop(∃ W, owes (c : Thread nD τ) (0 : CellTallies nD τ sig Unit) W) : sProp 𝕄) ⊢ (dat2 (ofVal Wc) c).owesAt () t := by
  iintro ⟨%W, H⟩
  iexists W
  isplitr
  · ipureintro; exact fun _ _ => Or.inl trivial
  iexact H

/-- And back: what the proof data say the core owes at any point is nothing. -/
theorem debt_out2 (c : Dev nD) (t : Fin (cfg2.N + 1)) :
    (dat2 (ofVal Wc) c).owesAt () t ⊢ (iprop(∃ W, owes (c : Thread nD τ) (0 : CellTallies nD τ sig Unit) W) : sProp 𝕄) := by
  iintro ⟨%W, -, H⟩
  iexists W
  iexact H

set_option backward.isDefEq.respectTransparency.types false in
/-- The decoder's pallas_call as a segment of @main, entered with every unscoped buffer at `Wc` and left with them at
    `Wp`. On entry the embedding array, held whole, is dealt to the two windows that stage it, a half each, and the
    output array goes to its window whole; every other unscoped buffer bypasses the region. On exit the two halves,
    unchanged, are one whole again. The generator register rides through the invariant beside the scoped buffers no
    window stages. Nothing is owed; the kernel names no semaphore of its own. -/
def reg2
    (hF : ∀ c w, (dat2 (ofVal Wc) c).arrAt w cfg2.N = ofVal Wp c (Pipeline.arrRef spec2 w))
    (hrest : ∀ c b, b ∉ Finset.univ.image (Pipeline.arrRef spec2) → ofVal Wp c b = ofVal Wc c b) :
    Pipeline.RegionSeg (pcfgs (F := F)) adm (pdats Wa Wb Wc) () defs₀ 𝒱₀ L lv 2 where
  win := winFacts₀2
  block_pos := block_pos2
  stage_whole := stage_whole2
  K := PEmpty
  osem k := k.elim
  ho := Pipeline.OwnSemFacts.none _
  hbody c := (body_obligation2 (ofVal Wc) c).loose
  hwaits := Pipeline.hwaits_of_owed_zero _ _ _ _ L lv 2 fun _ _ => rfl
  pre c := iprop(StableHlo.held (c : Thread nD τ) (Pipeline.ucRefs τ sig) (Wc c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) spec2 c (ofVal Wc c)
  hentry c := by
    rw [Pipeline.ownSems0_none]
    iintro ⟨⟨Hbufs, Hreg, Hdebt⟩, -, -⟩
    ihave Hsplit := held_entry2 Wc c $$ Hbufs
    icases Hsplit with ⟨Harr, Hbypass⟩
    imodintro
    isplitl [Harr]; · iexact Harr
    isplitr
    · unfold Pipeline.prefHeld
      rw [show (Finset.univ : Finset (Fin 0)) = ∅ from rfl, BI.bigSep_empty]
      iempintro
    isplitl [Hdebt]; · iapply debt_in2 Wc c 0; iexact Hdebt
    isplitl [Hreg]; · iexact Hreg
    iexact Hbypass
  hin c := by
    rw [show (pdats Wa Wb Wc 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none, show (pdats Wa Wb Wc 2 c).Φ (Fin.last _) = Pipeline.ΦA spec2 c from rfl]
    unfold Pipeline.ΦA
    iintro ⟨Hscoped, Hreg⟩
    isplitl [Hreg]; · iexact Hreg
    isplitr; · iempintro
    iexact Hscoped
  hexit c := by
    iintro ⟨Harr, Hdebt, Hreg, Hbypass⟩
    imodintro
    isplitl [Harr Hbypass]
    · iapply held_exit2 Wc Wp hF hrest c
      isplitl [Harr]; · iexact Harr
      iexact Hbypass
    isplitl [Hreg]; · iexact Hreg
    iapply debt_out2 Wc c (Fin.last _); iexact Hdebt

theorem reg2_pre (hF) (hrest) (c : Dev nD) :
    (reg2 Wa Wb Wc Wp hF hrest).pre c = iprop(StableHlo.held (c : Thread nD τ) (Pipeline.ucRefs τ sig) (Wc c) ∗ R c) := rfl

theorem reg2_post (hF) (hrest) (c : Dev nD) :
    (reg2 Wa Wb Wc Wp hF hrest).post c = iprop(StableHlo.held (c : Thread nD τ) (Pipeline.ucRefs τ sig) (Wp c) ∗ R c) := rfl

end Cert.KernelIdeal.Hand

end
-- ==== Proof.KI.Run.lean ====
/-
  The whole program's run. Between two items of @main a TensorCore's unscoped buffers hold a known valuation:

      W0  the launch memory
      W1  after the first host stretch (index normalisation, gather, neighbour sum, the casts of the first layer's operands)
      W2  W1 with the hidden activations' array at what the first layer's eight blocks leave there
      W3  after the second host stretch (the same aggregation over the hidden activations)
      W4  W3 with the embedding's array at what the second layer's blocks leave there
      W5  W4 with the result array at what the decoder's 128 tiles leave there

  Each host stretch runs over those buffers as a segment; each pallas_call is a segment entered from one valuation and
  left at the next (the three region records); the segments chain; and at the end every unscoped buffer is read off W5.
  No host operation writes an argument and no pallas_call has one as its output, so W5 at an argument is the launch memory.
-/
import proofs.«128521_j20864951123973_1_alg».proof.Proof.Gen.KernelIdeal.Launch
import proofs.«128521_j20864951123973_1_alg».proof.Proof.Gen.KernelIdeal.Skeleton
import proofs.«128521_j20864951123973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128521_j20864951123973_1_alg».proof.Proof.Gen.KernelIdeal.Regions
import proofs.«128521_j20864951123973_1_alg».proof.Proof.KI.Reg0
import proofs.«128521_j20864951123973_1_alg».proof.Proof.KI.Reg1
import proofs.«128521_j20864951123973_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
/-- What the first layer leaves in the hidden activations' array. -/
def hid (c : Dev nD) : Buf (Elt F) ((c : Thread nD τ).loc main_v12) := (dat0 (ofVal (W1 m)) c).arrAt 3 cfg0.N
def W2 (c : Dev nD) : Valuation τ sig (Elt F) := Function.update (W1 m c) main_v12 (hid m c)
abbrev W3 : Dev nD → Valuation τ sig (Elt F) := fun c => StableHlo.after hostOps1 (W2 m c)
/-- What the second layer leaves in the embedding's array. -/
def emb (c : Dev nD) : Buf (Elt F) ((c : Thread nD τ).loc main_v25) := (dat1 (ofVal (W3 m)) c).arrAt 4 cfg1.N
def W4 (c : Dev nD) : Valuation τ sig (Elt F) := Function.update (W3 m c) main_v25 (emb m c)
/-- What the decoder leaves in the result array. -/
def adj (c : Dev nD) : Buf (Elt F) ((c : Thread nD τ).loc main_v26) := (dat2 (ofVal (W4 m)) c).arrAt 2 cfg2.N
def W5 (c : Dev nD) : Valuation τ sig (Elt F) := Function.update (W4 m c) main_v26 (adj m c)

theorem W2_out (c : Dev nD) : W2 m c main_v12 = hid m c := by unfold W2; exact Function.update_self ..
theorem W2_of_ne (c : Dev nD) (b : Ref sig .tc) (h : b ≠ main_v12) : W2 m c b = W1 m c b := by
  unfold W2; exact Function.update_of_ne (StableHlo.devRef_ne_of_ne h) ..
theorem W4_out (c : Dev nD) : W4 m c main_v25 = emb m c := by unfold W4; exact Function.update_self ..
theorem W4_of_ne (c : Dev nD) (b : Ref sig .tc) (h : b ≠ main_v25) : W4 m c b = W3 m c b := by
  unfold W4; exact Function.update_of_ne (StableHlo.devRef_ne_of_ne h) ..
theorem W5_out (c : Dev nD) : W5 m c main_v26 = adj m c := by unfold W5; exact Function.update_self ..
theorem W5_of_ne (c : Dev nD) (b : Ref sig .tc) (h : b ≠ main_v26) : W5 m c b = W4 m c b := by
  unfold W5; exact Function.update_of_ne (StableHlo.devRef_ne_of_ne h) ..
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- An array no item writes holds its launch contents at the end. -/
theorem W5_kept (c : Dev nD) (r : Ref sig .tc) (h0 : r ∉ hostOps0_W) (h1 : r ∉ hostOps1_W)
    (h12 : r ≠ main_v12) (h25 : r ≠ main_v25) (h26 : r ≠ main_v26) : W5 m c r = m ((c : Thread nD τ).loc r) :=
  (W5_of_ne m c r h26).trans <| (W4_of_ne m c r h25).trans <| (W3_of m c r h1).trans <| (W2_of_ne m c r h12).trans <|
    (W1_of m c r h0).trans rfl

/-! ## Each pallas_call leaves its arrays as the next valuation says -/

theorem hF0 (c : Dev nD) (w : Fin cfg0.W) : (dat0 (ofVal (W1 m)) c).arrAt w cfg0.N = ofVal (W2 m) c (Pipeline.arrRef spec0 w) := by
  match w with
  | ⟨0, _⟩ => exact ((dat0 (ofVal (W1 m)) c).arrAt_in 0 rfl _).trans ((A_eq0 _ c 0).trans (W2_of_ne m c _ (by decide)).symm)
  | ⟨1, _⟩ => exact ((dat0 (ofVal (W1 m)) c).arrAt_in 1 rfl _).trans ((A_eq0 _ c 1).trans (W2_of_ne m c _ (by decide)).symm)
  | ⟨2, _⟩ => exact ((dat0 (ofVal (W1 m)) c).arrAt_in 2 rfl _).trans ((A_eq0 _ c 2).trans (W2_of_ne m c _ (by decide)).symm)
  | ⟨3, _⟩ => exact (W2_out m c).symm
theorem hrest0 (c : Dev nD) (b : Ref sig .tc) (hb : b ∉ Finset.univ.image (Pipeline.arrRef spec0)) : ofVal (W2 m) c b = ofVal (W1 m) c b :=
  W2_of_ne m c b fun h => hb (h ▸ Finset.mem_image.mpr ⟨3, Finset.mem_univ _, rfl⟩)

theorem hF1 (c : Dev nD) (w : Fin cfg1.W) : (dat1 (ofVal (W3 m)) c).arrAt w cfg1.N = ofVal (W4 m) c (Pipeline.arrRef spec1 w) := by
  match w with
  | ⟨0, _⟩ => exact ((dat1 (ofVal (W3 m)) c).arrAt_in 0 rfl _).trans ((A_eq1 _ c 0).trans (W4_of_ne m c _ (by decide)).symm)
  | ⟨1, _⟩ => exact ((dat1 (ofVal (W3 m)) c).arrAt_in 1 rfl _).trans ((A_eq1 _ c 1).trans (W4_of_ne m c _ (by decide)).symm)
  | ⟨2, _⟩ => exact ((dat1 (ofVal (W3 m)) c).arrAt_in 2 rfl _).trans ((A_eq1 _ c 2).trans (W4_of_ne m c _ (by decide)).symm)
  | ⟨3, _⟩ => exact ((dat1 (ofVal (W3 m)) c).arrAt_in 3 rfl _).trans ((A_eq1 _ c 3).trans (W4_of_ne m c _ (by decide)).symm)
  | ⟨4, _⟩ => exact (W4_out m c).symm
theorem hrest1 (c : Dev nD) (b : Ref sig .tc) (hb : b ∉ Finset.univ.image (Pipeline.arrRef spec1)) : ofVal (W4 m) c b = ofVal (W3 m) c b :=
  W4_of_ne m c b fun h => hb (h ▸ Finset.mem_image.mpr ⟨4, Finset.mem_univ _, rfl⟩)

theorem hF2 (c : Dev nD) (w : Fin cfg2.W) : (dat2 (ofVal (W4 m)) c).arrAt w cfg2.N = ofVal (W5 m) c (Pipeline.arrRef spec2 w) := by
  match w with
  | ⟨0, _⟩ => exact ((dat2 (ofVal (W4 m)) c).arrAt_in 0 rfl _).trans ((A_eq2 _ c 0).trans (W5_of_ne m c _ (by decide)).symm)
  | ⟨1, _⟩ => exact ((dat2 (ofVal (W4 m)) c).arrAt_in 1 rfl _).trans ((A_eq2 _ c 1).trans (W5_of_ne m c _ (by decide)).symm)
  | ⟨2, _⟩ => exact (W5_out m c).symm
theorem hrest2 (c : Dev nD) (b : Ref sig .tc) (hb : b ∉ Finset.univ.image (Pipeline.arrRef spec2)) : ofVal (W5 m) c b = ofVal (W4 m) c b :=
  W5_of_ne m c b fun h => hb (h ▸ Finset.mem_image.mpr ⟨2, Finset.mem_univ _, rfl⟩)

/-! ## The segments -/

/-- A host stretch over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev fam := pdats (F := F) (W1 m) (W3 m) (W4 m)
abbrev r0 := reg0 (W1 m) (W3 m) (W4 m) (W2 m) (hF0 m) (hrest0 m)
abbrev r1 := reg1 (W1 m) (W3 m) (W4 m) (W4 m) (hF1 m) (hrest1 m)
abbrev r2 := reg2 (W1 m) (W3 m) (W4 m) (W5 m) (hF2 m) (hrest2 m)

abbrev segs : List (Pipeline.Seg (pcfgs (F := F)) adm (fam m) () defs₀ 𝒱₀ L lv) :=
  [ .host (hseg hostOps0 hostOps0_sub hostOps0_fresh (W0 m)),
    .region (r0 m),
    .host (hseg hostOps1 hostOps1_sub hostOps1_fresh (W2 m)),
    .region (r1 m),
    .region (r2 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state beside the core owing nothing: every unscoped buffer at `W5`, the generator register somewhere. -/
abbrev Tₙ (c : Dev nD) : sProp 𝕄 := iprop(StableHlo.held (c : Thread nD τ) (Pipeline.ucRefs τ sig) (W5 m c) ∗ ∃ r, prngReg c r)

/-! ## The launch -/

set_option backward.isDefEq.respectTransparency.types false in
/-- From any memory with zero counters every weakly fair execution of @main terminates, nothing faulting, and every
    final memory holds each unscoped buffer at `W5`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (fam m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl,
      fun c => by dsimp only [Pipeline.Seg.pre, Pipeline.Seg.post]; rw [reg0_pre]; exact .rfl,
      fun c => by dsimp only [Pipeline.Seg.pre, Pipeline.Seg.post]; rw [reg0_post]; exact .rfl,
      fun c => by dsimp only [Pipeline.Seg.pre, Pipeline.Seg.post]; rw [reg1_pre]; exact .rfl,
      fun c => by dsimp only [Pipeline.Seg.pre, Pipeline.Seg.post]; rw [reg1_post, reg2_pre],
      fun c => by
        dsimp only [Pipeline.Seg.pre, Pipeline.Seg.post]
        rw [reg2_post]
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The run with the result array named and every argument read back: the result ends at what the decoder's tiles
    leave (`adj`), each argument at its launch contents. -/
theorem run_main : θ_run defs (onTc (τ := τ) (main (F := F))) ⟨m, fun _ => 0, ρ⟩ (fun r => ∀ c : Dev nD,
      r.2.mem ((c.tc : Thread nD τ).loc main_v26) = adj m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v26 (by decide))).trans (W5_out m c),
     (h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide)),
     (h c _ (mem_uc main_arg2 (by decide))).trans (W5_kept m c main_arg2 (by decide) (by decide) (by decide) (by decide) (by decide)),
     (h c _ (mem_uc main_arg3 (by decide))).trans (W5_kept m c main_arg3 (by decide) (by decide) (by decide) (by decide) (by decide)),
     (h c _ (mem_uc main_arg4 (by decide))).trans (W5_kept m c main_arg4 (by decide) (by decide) (by decide) (by decide) (by decide)),
     (h c _ (mem_uc main_arg5 (by decide))).trans (W5_kept m c main_arg5 (by decide) (by decide) (by decide) (by decide) (by decide)),
     (h c _ (mem_uc main_arg6 (by decide))).trans (W5_kept m c main_arg6 (by decide) (by decide) (by decide) (by decide) (by decide)),
     (h c _ (mem_uc main_arg7 (by decide))).trans (W5_kept m c main_arg7 (by decide) (by decide) (by decide) (by decide) (by decide))⟩)
    (run_all m ρ)

end Cert.KernelIdeal.Hand

end
-- ==== Proof.Spec.lean ====
/-
  The mathematics of the graph auto-encoder, index by index over the extended reals: what both programs compute
  from the aggregated node features.

  With N = 16384 nodes, feature widths 256 → 128 → 32:
    * `hidden a w b`   — the first layer: row r, column j holds  max (Σ_k a[r,k]·w[k,j] + b[j]) 0;
    * `embed a w b d`  — the second layer with its dropout mask: (Σ_k a[r,k]·w[k,j] + b[j]) · d[r,j];
    * `gram z`         — the decoder: entry (r, c) is the inner product of rows r and c of z, Σ_k z[r,k]·z[c,k].
  A sum over one contracted axis is written over that axis's own coordinate `k : Fin K`; no order of summation and no
  tiling of the rows appears, since on the extended reals a finite sum has neither.
-/
import Idealize.ShloMosaic.PureOps.Ideal
import Idealize.ShloMosaic.Lib.ValueIdx

noncomputable section

open scoped BigOperators

namespace Cert.Spec

open Idealize.ShloMosaic Idealize.ShloMosaic.ValueIdx

/-- The first layer: `relu (a · w + b)`, the bias broadcast along the rows. -/
def hidden (a : (⟨2, ![16384, 256]⟩ : Shape).Idx → EReal) (w : (⟨2, ![256, 128]⟩ : Shape).Idx → EReal)
    (b : (⟨1, ![128]⟩ : Shape).Idx → EReal) : (⟨2, ![16384, 128]⟩ : Shape).Idx → EReal :=
  fun i => max ((∑ k : Fin 256, a (ix2 (i 0) k) * w (ix2 k (i 1))) + b (ix1 (i 1))) 0

/-- The second layer, no activation, times the dropout mask entry by entry. -/
def embed (a : (⟨2, ![16384, 128]⟩ : Shape).Idx → EReal) (w : (⟨2, ![128, 32]⟩ : Shape).Idx → EReal)
    (b : (⟨1, ![32]⟩ : Shape).Idx → EReal) (d : (⟨2, ![16384, 32]⟩ : Shape).Idx → EReal) :
    (⟨2, ![16384, 32]⟩ : Shape).Idx → EReal :=
  fun i => ((∑ k : Fin 128, a (ix2 (i 0) k) * w (ix2 k (i 1))) + b (ix1 (i 1))) * d i

/-- The decoder: the Gram matrix of the embedding's rows. -/
def gram (z : (⟨2, ![16384, 32]⟩ : Shape).Idx → EReal) : (⟨2, ![16384, 16384]⟩ : Shape).Idx → EReal :=
  fun i => ∑ k : Fin 32, z (ix2 (i 0) k) * z (ix2 (i 1) k)

end Cert.Spec

end
-- ==== Proof.KI.Val0.lean ====
/-
  What the first layer's pallas_call leaves in its output array, at the ideal values: the eight row blocks tile the
  array, and block t holds relu (x · w + b) of rows [2048 t, 2048 t + 2048) — so the whole array is `Spec.hidden` of
  the aggregated features, the weights and the bias row.

  The steps: the body's one store covers its whole staging buffer, so what it leaves is its payload of the three
  loaded blocks; the payload read at row p, column q is max (Σ_k x[p,k]·w[k,q] + b[0,q]) 0 (the contraction's sum
  re-indexed over the one contracted axis, the bias row read at row 0, the narrowing to bf16 the identity on the
  extended reals); row p of the feature block at point t is row 2048 t + p of the array, while the weights' and the
  bias row's blocks are their whole arrays; and row r of the output lies in the block of point r / 2048.
-/
import proofs.«128521_j20864951123973_1_alg».proof.Proof.KI.D0
import proofs.«128521_j20864951123973_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's result is its payload of the three loaded blocks -/

/-- The body's accesses start at offset zero on both axes. -/
theorem offsets_zero0 : (![0, 0] : Fin 2 → Nat) = fun _ => 0 :=
  funext fun a => match a with | ⟨0, _⟩ => rfl | ⟨1, _⟩ => rfl

/-- One store over the whole buffer, of whole-buffer loads: the buffer ends at the payload of the blocks. -/
theorem out_eq_pay0 (x0 : Vec Ideal S2048x256 .f32) (x1 : Vec Ideal S256x128 .bf16) (x2 : Vec Ideal S1x128 .f32) :
    out0 x0 x1 x2 = k0_pay1 x0 x1 x2 := by
  unfold out0
  rw [View.canon_unit_zero offsets_zero0]
  simp only [View.ld_unit_zero (S := S2048x256) offsets_zero0, View.ld_unit_zero (S := S256x128) offsets_zero0,
    View.ld_unit_zero (S := S1x128) offsets_zero0]

/-! ## The payload at row p, column q -/

/-- The contraction's left operand is read at the output's row … -/
theorem lhs_row_dot0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- … and at the contracted coordinate; -/
theorem lhs_contr_dot0 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- the right operand at the contracted coordinate … -/
theorem rhs_contr_dot0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- … and at the output's column. -/
theorem rhs_col_dot0 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product into the zero accumulator, at row p and column q: the sum over the 256 contracted coordinates. -/
theorem matmul_apply0 (a : FVec Ideal S2048x256 .bf16) (b : FVec Ideal S256x128 .bf16) (p : Fin 2048) (q : Fin 128) :
    matmul dot_S2048x256_S256x128_S2048x128_1_0_0_1_n_n none a b (constant (F := Ideal) S2048x128 .f32 0x00000000#32) (ix2 p q)
      = ∑ k : Fin 256, a (ix2 p k) * b (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact lhs_row_dot0 _ _
    | ⟨1, _⟩ => exact (lhs_contr_dot0 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (rhs_contr_dot0 _ _).trans hk
    | ⟨1, _⟩ => exact rhs_col_dot0 _ _)
  rw [el, er]

/-- The bias row broadcast along the rows reads, at any row, the row's one entry of that column. -/
theorem bias_apply0 (x2 : Vec Ideal S1x128 .f32) (p : Fin 2048) (q : Fin 128) :
    broadcastTo S2048x128 (shapeCast S1x128 x2 shapeCasts_S1x128_S1x128) broadcasts_S1x128_S2048x128 (ix2 p q)
      = x2 (ix2 0 q) := by
  rw [shapeCast_self]
  exact broadcastTo_apply x2 broadcasts_S1x128_S2048x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The payload at row p, column q: relu of the row's product with the column plus the bias. -/
theorem pay_apply0 (x0 : Vec Ideal S2048x256 .f32) (x1 : Vec Ideal S256x128 .bf16) (x2 : Vec Ideal S1x128 .f32)
    (p : Fin 2048) (q : Fin 128) :
    k0_pay1 x0 x1 x2 (ix2 p q) = max ((∑ k : Fin 256, x0 (ix2 p k) * x1 (ix2 k q)) + x2 (ix2 0 q)) 0 := by
  unfold k0_pay1
  rw [maximumf_apply, addf_apply, broadcast_apply, matmul_apply0, bias_apply0]
  simp only [shapeCast_self, truncf_apply]
  exact congrArg (max _) Ideal.ofBits_zero_f32

-- the TensorCore's buffer contents when the region is entered, at the ideal values
variable (V : (c : Dev nD) → (b : Ref sig .tc) → Buf (Elt Ideal) ((c : Thread nD τ).loc b))

/-! ## Each block read where the output's rows say -/

/-- The three arrays the call reads, as the region finds them: the aggregated features, the bf16 weights, the bias row. -/
abbrev feat0 (c : Dev nD) : S16384x256.Idx → EReal := V c main_v9
abbrev wts0 (c : Dev nD) : S256x128.Idx → EReal := V c main_v10
abbrev brow0 (c : Dev nD) : S1x128.Idx → EReal := V c main_v11

/-- The first layer over the whole arrays as the region finds them. -/
abbrev hid0 (c : Dev nD) : S16384x128.Idx → EReal :=
  Cert.Spec.hidden (feat0 V c) (wts0 V c) (fun j => brow0 V c (ix2 0 (j 0)))

/-- The printed index maps, decided over the grid: the feature block and the output block of point t are row block t,
    the weights' and the bias row's blocks are block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the feature block at point t is row 2048 t + p of the feature array. -/
theorem iblk_feat_apply0 (c : Dev nD) (t : Fin cfg0.N) (y : S2048x256.Idx) (i : S16384x256.Idx)
    (h0 : (i 0).val = t.val * 2048 + (y 0).val) (h1 : (i 1).val = (y 1).val) :
    (iblk0 V c 0 t : Vec Ideal S2048x256 .f32) y = feat0 V c i := by
  obtain ⟨e0, e1, -⟩ := idx_facts0 t
  unfold iblk0
  rw [View.read_apply]
  show feat0 V c _ = _
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 256 + 1 * (y 1).val = (i 1).val; rw [e1, h1]; omega

/-- The weights' block at any point is the whole weight matrix. -/
theorem iblk_wts_eq0 (c : Dev nD) (t : Fin cfg0.N) :
    (iblk0 V c 1 t : Vec Ideal S256x128 .bf16) = wts0 V c := by
  obtain ⟨-, -, e0, e1, -⟩ := idx_facts0 t
  funext y
  unfold iblk0
  rw [View.read_apply]
  show wts0 V c _ = _
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The bias row's block at any point is the whole bias row. -/
theorem iblk_brow_eq0 (c : Dev nD) (t : Fin cfg0.N) :
    (iblk0 V c 2 t : Vec Ideal S1x128 .f32) = brow0 V c := by
  obtain ⟨-, -, -, -, e0, e1, -⟩ := idx_facts0 t
  funext y
  unfold iblk0
  rw [View.read_apply]
  show brow0 V c _ = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The payload of point t's blocks at row p, column q is the first layer at row 2048 t + p, column q. -/
theorem pay_blocks0 (c : Dev nD) (t : Fin cfg0.N) (p : Fin 2048) (q : Fin 128) (i : S16384x128.Idx)
    (h0 : (i 0).val = t.val * 2048 + p.val) (h1 : (i 1).val = q.val) :
    k0_pay1 (iblk0 V c 0 t) (iblk0 V c 1 t) (iblk0 V c 2 t) (ix2 p q) = hid0 V c i := by
  obtain ⟨r, s, rfl⟩ : ∃ (r : Fin 16384) (s : Fin 128), i = ix2 r s := ⟨i 0, i 1, eq_ix2 i⟩
  obtain rfl : s = q := Fin.ext h1
  refine (pay_apply0 (iblk0 V c 0 t) (iblk0 V c 1 t) (iblk0 V c 2 t) p s).trans ?_
  rw [iblk_wts_eq0 V c t, iblk_brow_eq0 V c t]
  show _ = max ((∑ k : Fin 256, feat0 V c (ix2 r k) * wts0 V c (ix2 k s)) + brow0 V c (ix2 0 s)) 0
  refine congrArg (fun z => max (z + _) 0) (Finset.sum_congr rfl fun k _ => ?_)
  rw [iblk_feat_apply0 V c t (ix2 p k) (ix2 r k) h0 rfl]

/-! ## What a point writes back, the cover, and the array -/

/-- WHAT POINT t WRITES BACK is block t of the first layer over the whole arrays. -/
theorem flushed_eq0 (c : Dev nD) (t : Fin cfg0.N) :
    (dat0 (F := Ideal) V c).flushed 3 t = ((cfg0.win 3).blk t).view.read (Elt Ideal) (hid0 V c) := by
  show (cfg0.win 3).cut (grid0.coords t) ((dat0 V c).after 3 t) = _
  rw [after0_3, out_eq_pay0]
  obtain ⟨-, -, -, -, -, -, e0, e1⟩ := idx_facts0 t
  funext j
  rw [View.read_apply]
  show k0_pay1 (iblk0 V c 0 t) (iblk0 V c 1 t) (iblk0 V c 2 t) ((cfg0.win 3).xinj (grid0.coords t) j)
    = hid0 V c (((cfg0.win 3).blk t).view.emb j)
  have hy : (cfg0.win 3).xinj (grid0.coords t) j
      = ix2 (⟨(j 0).val, (j 0).isLt⟩ : Fin 2048) (⟨(j 1).val, (j 1).isLt⟩ : Fin 128) :=
    funext fun a => match a with | ⟨0, _⟩ => rfl | ⟨1, _⟩ => rfl
  rw [hy]
  refine pay_blocks0 V c t _ _ _ ?_ ?_
  · show win0_3.index t (0 : Fin 2) * 2048 + 1 * (j 0).val = t.val * 2048 + (j 0).val
    rw [e0]; omega
  · show win0_3.index t (1 : Fin 2) * 128 + 1 * (j 1).val = (j 1).val
    rw [e1]; omega

/-- An index of the output array is in point t's block iff each coordinate is in the block's range on its axis. -/
theorem mem_blk0 (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v12).slice (win0_3.rect t)).set ↔ _
  rw [View.set_slice_whole, Rect.mem_set_unit]
  exact Iff.rfl

/-- Every index of the output array is in some point's block: row r is in the block of point r / 2048. -/
theorem cover0 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 128 ≤ (i 1).val ∧ (i 1).val < win0_3.index t (1 : Fin 2) * 128 + 128
    rw [e1]; omega

theorem arrAt0 (c : Dev nD) :
    (dat0 (F := Ideal) V c).arrAt 3 cfg0.N
      = Cert.Spec.hidden (V c main_v9) (V c main_v10) (fun j => V c main_v11 (ix2 0 (j 0))) :=
  (dat0 (F := Ideal) V c).arrAt_eq_of_cover 3 (hid0 V c) (fun t _ => flushed_eq0 V c t) cover0

end Cert.KernelIdeal.HandValue

end
-- ==== Proof.KI.Val1.lean ====
/-
  What the second layer's pallas_call leaves in its output array, at the ideal values: `Spec.embed` of the aggregated
  hidden features, the weights, the bias row and the dropout mask.

  The steps: the body's one store covers its whole staging buffer, so what it leaves is its payload of the four
  loaded blocks; the payload read at row p, column q is (Σ_k x[p,k]·w[k,q] + b[0,q]) · d[p,q] (the contraction's sum
  re-indexed over the one contracted axis, the bias row read at row 0, both narrowings to bf16 the identity on the
  extended reals); row p of the feature block and of the mask block at point t is row 2048 t + p of its array, while
  the weights' and the bias row's blocks are their whole arrays; and row r of the output lies in the block of point
  r / 2048.
-/
import proofs.«128521_j20864951123973_1_alg».proof.Proof.KI.D1
import proofs.«128521_j20864951123973_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's result is its payload of the four loaded blocks -/

/-- The body's accesses start at offset zero on both axes. -/
theorem offsets_zero1 : (![0, 0] : Fin 2 → Nat) = fun _ => 0 :=
  funext fun a => match a with | ⟨0, _⟩ => rfl | ⟨1, _⟩ => rfl

/-- One store over the whole buffer, of whole-buffer loads: the buffer ends at the payload of the blocks. -/
theorem out_eq_pay1 (x0 : Vec Ideal S2048x128 .f32) (x1 : Vec Ideal S128x32 .bf16) (x2 : Vec Ideal S1x32 .f32)
    (x3 : Vec Ideal S2048x32 .f32) :
    out1 x0 x1 x2 x3 = k1_pay1 x0 x1 x2 x3 := by
  unfold out1
  rw [View.canon_unit_zero offsets_zero1]
  simp only [View.ld_unit_zero (S := S2048x128) offsets_zero1, View.ld_unit_zero (S := S128x32) offsets_zero1,
    View.ld_unit_zero (S := S1x32) offsets_zero1, View.ld_unit_zero (S := S2048x32) offsets_zero1]

/-! ## The payload at row p, column q -/

/-- The contraction's left operand is read at the output's row … -/
theorem lhs_row_dot1 (i : S2048x32.Idx) (q : dot_S2048x128_S128x32_S2048x32_1_0_0_1_n_n.contr.Idx) :
    (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
/-- … and at the contracted coordinate; -/
theorem lhs_contr_dot1 (i : S2048x32.Idx) (q : dot_S2048x128_S128x32_S2048x32_1_0_0_1_n_n.contr.Idx) :
    (dot_S2048x128_S128x32_S2048x32_1_0_0_1_n_n.lhsIdx i q 1).val = (q ⟨0, by decide⟩).val :=
  dot_S2048x128_S128x32_S2048x32_1_0_0_1_n_n.lhsIdx_val_of_single rfl i q
/-- the right operand at the contracted coordinate … -/
theorem rhs_contr_dot1 (i : S2048x32.Idx) (q : dot_S2048x128_S128x32_S2048x32_1_0_0_1_n_n.contr.Idx) :
    (dot_S2048x128_S128x32_S2048x32_1_0_0_1_n_n.rhsIdx i q 0).val = (q ⟨0, by decide⟩).val :=
  dot_S2048x128_S128x32_S2048x32_1_0_0_1_n_n.rhsIdx_val_of_single rfl i q
/-- … and at the output's column. -/
theorem rhs_col_dot1 (i : S2048x32.Idx) (q : dot_S2048x128_S128x32_S2048x32_1_0_0_1_n_n.contr.Idx) :
    (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The product into the zero accumulator, at row p and column q: the sum over the 128 contracted coordinates. -/
theorem matmul_apply1 (a : FVec Ideal S2048x128 .bf16) (b : FVec Ideal S128x32 .bf16) (p : Fin 2048) (q : Fin 32) :
    matmul dot_S2048x128_S128x32_S2048x32_1_0_0_1_n_n none a b (constant (F := Ideal) S2048x32 .f32 0x00000000#32) (ix2 p q)
      = ∑ k : Fin 128, a (ix2 p k) * b (ix2 k q) := by
  simp only [matmul]
  rw [Ideal.matmul_constant_zero_apply, ← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p q) ((contrEquiv1 dot_S2048x128_S128x32_S2048x32_1_0_0_1_n_n 128 rfl rfl).symm k) = ix2 p k := funext fun a => Fin.ext (by
    match a with
    | ⟨0, _⟩ => exact lhs_row_dot1 _ _
    | ⟨1, _⟩ => exact (lhs_contr_dot1 _ _).trans hk)
  have er : dot_S2048x128_S128x32_S2048x32_1_0_0_1_n_n.rhsIdx (ix2 p q) ((contrEquiv1 dot_S2048x128_S128x32_S2048x32_1_0_0_1_n_n 128 rfl rfl).symm k) = ix2 k q := funext fun a => Fin.ext (by
    match a with
    | ⟨0, _⟩ => exact (rhs_contr_dot1 _ _).trans hk
    | ⟨1, _⟩ => exact rhs_col_dot1 _ _)
  rw [el, er]

/-- The bias row broadcast along the rows reads, at any row, the row's one entry of that column. -/
theorem bias_apply1 (x2 : Vec Ideal S1x32 .f32) (p : Fin 2048) (q : Fin 32) :
    broadcastTo S2048x32 (shapeCast S1x32 x2 shapeCasts_S1x32_S1x32) broadcasts_S1x32_S2048x32 (ix2 p q)
      = x2 (ix2 0 q) := by
  rw [shapeCast_self]
  exact broadcastTo_apply x2 broadcasts_S1x32_S2048x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The payload at row p, column q: the row's product with the column plus the bias, times the mask's entry. -/
theorem pay_apply1 (x0 : Vec Ideal S2048x128 .f32) (x1 : Vec Ideal S128x32 .bf16) (x2 : Vec Ideal S1x32 .f32)
    (x3 : Vec Ideal S2048x32 .f32) (p : Fin 2048) (q : Fin 32) :
    k1_pay1 x0 x1 x2 x3 (ix2 p q)
      = ((∑ k : Fin 128, x0 (ix2 p k) * x1 (ix2 k q)) + x2 (ix2 0 q)) * x3 (ix2 p q) := by
  unfold k1_pay1
  rw [truncf_apply, mulf_apply, addf_apply, matmul_apply1, bias_apply1]
  simp only [shapeCast_self, truncf_apply]

-- the TensorCore's buffer contents when the region is entered, at the ideal values
variable (V : (c : Dev nD) → (b : Ref sig .tc) → Buf (Elt Ideal) ((c : Thread nD τ).loc b))

/-! ## Each block read where the output's rows say -/

/-- The four arrays the call reads, as the region finds them: the aggregated hidden features, the bf16 weights, the
    bias row, the dropout mask. -/
abbrev feat1 (c : Dev nD) : S16384x128.Idx → EReal := V c main_v22
abbrev wts1 (c : Dev nD) : S128x32.Idx → EReal := V c main_v23
abbrev brow1 (c : Dev nD) : S1x32.Idx → EReal := V c main_v24
abbrev mask1 (c : Dev nD) : S16384x32.Idx → EReal := V c main_arg7

/-- The second layer over the whole arrays as the region finds them. -/
abbrev emb1 (c : Dev nD) : S16384x32.Idx → EReal :=
  Cert.Spec.embed (feat1 V c) (wts1 V c) (fun j => brow1 V c (ix2 0 (j 0))) (mask1 V c)

/-- The printed index maps, decided over the grid: the feature block, the mask block and the output block of point t
    are row block t, the weights' and the bias row's blocks are block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of the feature block at point t is row 2048 t + p of the feature array. -/
theorem iblk_feat_apply1 (c : Dev nD) (t : Fin cfg1.N) (y : S2048x128.Idx) (i : S16384x128.Idx)
    (h0 : (i 0).val = t.val * 2048 + (y 0).val) (h1 : (i 1).val = (y 1).val) :
    (iblk1 V c 0 t : Vec Ideal S2048x128 .f32) y = feat1 V c i := by
  obtain ⟨e0, e1, -⟩ := idx_facts1 t
  unfold iblk1
  rw [View.read_apply]
  show feat1 V c _ = _
  refine congrArg _ (funext fun a => Fin.ext ?_)
  match a with
  | ⟨0, _⟩ => show win1_0.index t (0 : Fin 2) * 2048 + 1 * (y 0).val = (i 0).val; rw [e0, h0]; omega
  | ⟨1, _⟩ => show win1_0.index t (1 : Fin 2) * 128 + 1 * (y 1).val = (i 1).val; rw [e1, h1]; omega

/-- The weights' block at any point is the whole weight matrix. -/
theorem iblk_wts_eq1 (c : Dev nD) (t : Fin cfg1.N) :
    (iblk1 V c 1 t : Vec Ideal S128x32 .bf16) = wts1 V c := by
  obtain ⟨-, -, e0, e1, -⟩ := idx_facts1 t
  funext y
  unfold iblk1
  rw [View.read_apply]
  show wts1 V c _ = _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 32 + 1 * (y 1).val = (y 1).val; rw [e1]; omega

/-- The bias row's block at any point is the whole bias row. -/
theorem iblk_brow_eq1 (c : Dev nD) (t : Fin cfg1.N) :
    (iblk1 V c 2 t : Vec Ideal S1x32 .f32) = brow1 V c := by
  obtain ⟨-, -, -, -, e0, e1, -⟩ := idx_facts1 t
  funext y
  unfold iblk1
  rw [View.read_apply]
  show brow1 V c _ = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega

/-- Row p of the mask block at point t is row 2048 t + p of the mask. -/
theorem iblk_mask_apply1 (c : Dev nD) (t : Fin cfg1.N) (y : S2048x32.Idx) (i : S16384x32.Idx)
    (h0 : (i 0).val = t.val * 2048 + (y 0).val) (h1 : (i 1).val = (y 1).val) :
    (iblk1 V c 3 t : Vec Ideal S2048x32 .f32) y = mask1 V c i := by
  obtain ⟨-, -, -, -, -, -, e0, e1, -⟩ := idx_facts1 t
  unfold iblk1
  rw [View.read_apply]
  show mask1 V c _ = _
  refine congrArg _ (funext fun a => Fin.ext ?_)
  match a with
  | ⟨0, _⟩ => show win1_3.index t (0 : Fin 2) * 2048 + 1 * (y 0).val = (i 0).val; rw [e0, h0]; omega
  | ⟨1, _⟩ => show win1_3.index t (1 : Fin 2) * 32 + 1 * (y 1).val = (i 1).val; rw [e1, h1]; omega

/-- The payload of point t's blocks at row p, column q is the second layer at row 2048 t + p, column q. -/
theorem pay_blocks1 (c : Dev nD) (t : Fin cfg1.N) (p : Fin 2048) (q : Fin 32) (i : S16384x32.Idx)
    (h0 : (i 0).val = t.val * 2048 + p.val) (h1 : (i 1).val = q.val) :
    k1_pay1 (iblk1 V c 0 t) (iblk1 V c 1 t) (iblk1 V c 2 t) (iblk1 V c 3 t) (ix2 p q) = emb1 V c i := by
  obtain ⟨r, s, rfl⟩ : ∃ (r : Fin 16384) (s : Fin 32), i = ix2 r s := ⟨i 0, i 1, eq_ix2 i⟩
  obtain rfl : s = q := Fin.ext h1
  refine (pay_apply1 (iblk1 V c 0 t) (iblk1 V c 1 t) (iblk1 V c 2 t) (iblk1 V c 3 t) p s).trans ?_
  rw [iblk_wts_eq1 V c t, iblk_brow_eq1 V c t, iblk_mask_apply1 V c t (ix2 p s) (ix2 r s) h0 rfl]
  show _ = ((∑ k : Fin 128, feat1 V c (ix2 r k) * wts1 V c (ix2 k s)) + brow1 V c (ix2 0 s)) * mask1 V c (ix2 r s)
  refine congrArg (fun z => (z + _) * _) (Finset.sum_congr rfl fun k _ => ?_)
  rw [iblk_feat_apply1 V c t (ix2 p k) (ix2 r k) h0 rfl]

/-! ## What a point writes back, the cover, and the array -/

/-- WHAT POINT t WRITES BACK is block t of the second layer over the whole arrays. -/
theorem flushed_eq1 (c : Dev nD) (t : Fin cfg1.N) :
    (dat1 (F := Ideal) V c).flushed 4 t = ((cfg1.win 4).blk t).view.read (Elt Ideal) (emb1 V c) := by
  show (cfg1.win 4).cut (grid1.coords t) ((dat1 V c).after 4 t) = _
  rw [after1_4, out_eq_pay1]
  obtain ⟨-, -, -, -, -, -, -, -, e0, e1⟩ := idx_facts1 t
  funext j
  rw [View.read_apply]
  show k1_pay1 (iblk1 V c 0 t) (iblk1 V c 1 t) (iblk1 V c 2 t) (iblk1 V c 3 t) ((cfg1.win 4).xinj (grid1.coords t) j)
    = emb1 V c (((cfg1.win 4).blk t).view.emb j)
  have hy : (cfg1.win 4).xinj (grid1.coords t) j
      = ix2 (⟨(j 0).val, (j 0).isLt⟩ : Fin 2048) (⟨(j 1).val, (j 1).isLt⟩ : Fin 32) :=
    funext fun a => match a with | ⟨0, _⟩ => rfl | ⟨1, _⟩ => rfl
  rw [hy]
  refine pay_blocks1 V c t _ _ _ ?_ ?_
  · show win1_4.index t (0 : Fin 2) * 2048 + 1 * (j 0).val = t.val * 2048 + (j 0).val
    rw [e0]; omega
  · show win1_4.index t (1 : Fin 2) * 32 + 1 * (j 1).val = (j 1).val
    rw [e1]; omega

/-- An index of the output array is in point t's block iff each coordinate is in the block's range on its axis. -/
theorem mem_blk1 (t : Fin cfg1.N) (i : S16384x32.Idx) :
    i ∈ ((cfg1.win 4).blk t).view.set ↔ ∀ a : Fin 2, win1_4.index t a * S2048x32.size a ≤ (i a).val
      ∧ (i a).val < win1_4.index t a * S2048x32.size a + S2048x32.size a := by
  show i ∈ ((View.whole main_v25).slice (win1_4.rect t)).set ↔ _
  rw [View.set_slice_whole, Rect.mem_set_unit]
  exact Iff.rfl

/-- Every index of the output array is in some point's block: row r is in the block of point r / 2048. -/
theorem cover1 (i : S16384x32.Idx) :
    ∃ t : Fin cfg1.N, (cfg1.win 4).flush t = true ∧ i ∈ ((cfg1.win 4).blk t).view.set := by
  have hi0 : (i 0).val < 16384 := (i 0).isLt
  have hi1 : (i 1).val < 32 := (i 1).isLt
  have hN : cfg1.N = 8 := N_1
  obtain ⟨t, ht⟩ : ∃ t : Fin cfg1.N, t.val = (i 0).val / 2048 := ⟨⟨(i 0).val / 2048, by rw [hN]; omega⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 2048 ≤ (i 0).val ∧ (i 0).val < win1_4.index t (0 : Fin 2) * 2048 + 2048
    rw [e0, ht]; omega
  | ⟨1, _⟩ =>
    show win1_4.index t (1 : Fin 2) * 32 ≤ (i 1).val ∧ (i 1).val < win1_4.index t (1 : Fin 2) * 32 + 32
    rw [e1]; omega

theorem arrAt1 (c : Dev nD) :
    (dat1 (F := Ideal) V c).arrAt 4 cfg1.N
      = Cert.Spec.embed (V c main_v22) (V c main_v23) (fun j => V c main_v24 (ix2 0 (j 0))) (V c main_arg7) :=
  (dat1 (F := Ideal) V c).arrAt_eq_of_cover 4 (emb1 V c) (fun t _ => flushed_eq1 V c t) cover1

end Cert.KernelIdeal.HandValue

end
-- ==== Proof.KI.Val2.lean ====
/-
  What the decoder's pallas_call leaves in its output array, at the ideal values: the 8 × 16 tiles cover the array, and
  tile (i, j) holds the inner products of rows 2048 i + r and 1024 j + s of the embedding — so the array ends holding
  the Gram matrix `Spec.gram` of the embedding.

  The steps: the body's one store covers its whole staging buffer, so what it leaves is its payload of the two loaded
  blocks; the payload at (r, s) is Σ_k x0[r,k] · x1[s,k] (the product into the zero splat, the right block transposed);
  at point t = 16 i + j the left block is rows 2048 i + r and the right block rows 1024 j + s of the same embedding
  array, so the tile written back is tile (i, j) of the Gram matrix; and entry (r, c) of the array lies in the tile of
  point 16 (r / 2048) + c / 1024.
-/
import proofs.«128521_j20864951123973_1_alg».proof.Proof.KI.D2
import proofs.«128521_j20864951123973_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

theorem zero_offsets2 : (![0, 0] : Fin 2 → Nat) = fun _ => 0 := funext fun a => by fin_cases a <;> rfl

/-- The body's one store covers the whole staging buffer: what it leaves is the payload of the two loaded blocks. -/
theorem out2_eq {F : FTy → Type} [FloatOps F] (x0 : Vec F S2048x32 .bf16) (x1 : Vec F S1024x32 .bf16) :
    out2 x0 x1 = k2_pay1 x0 x1 := by
  unfold out2
  rw [View.canon_unit_zero zero_offsets2]
  simp only [View.ld_unit_zero (S := S2048x32) zero_offsets2, View.ld_unit_zero (S := S1024x32) zero_offsets2]

theorem lhs_dot2_0 (i : S2048x1024.Idx) (q : dot_S2048x32_S32x1024_S2048x1024_1_0_0_1_n_n.contr.Idx) :
    (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem lhs_dot2_1 (i : S2048x1024.Idx) (q : dot_S2048x32_S32x1024_S2048x1024_1_0_0_1_n_n.contr.Idx) :
    (dot_S2048x32_S32x1024_S2048x1024_1_0_0_1_n_n.lhsIdx i q 1).val = (q ⟨0, by decide⟩).val :=
  dot_S2048x32_S32x1024_S2048x1024_1_0_0_1_n_n.lhsIdx_val_of_single rfl i q
theorem rhs_dot2_0 (i : S2048x1024.Idx) (q : dot_S2048x32_S32x1024_S2048x1024_1_0_0_1_n_n.contr.Idx) :
    (dot_S2048x32_S32x1024_S2048x1024_1_0_0_1_n_n.rhsIdx i q 0).val = (q ⟨0, by decide⟩).val :=
  dot_S2048x32_S32x1024_S2048x1024_1_0_0_1_n_n.rhsIdx_val_of_single rfl i q
theorem rhs_dot2_1 (i : S2048x1024.Idx) (q : dot_S2048x32_S32x1024_S2048x1024_1_0_0_1_n_n.contr.Idx) :
    (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

/-- The transposed right block at (k, s) is the right block at (s, k). -/
theorem transpose_right_apply (x : Vec Ideal S1024x32 .bf16) (k : Fin 32) (s : Fin 1024) :
    transpose S32x1024 [1, 0] x transposes_S1024x32_p1_0_S32x1024 (ix2 k s) = x (ix2 s k) :=
  transpose_apply [1, 0] x transposes_S1024x32_p1_0_S32x1024 (ix2 k s) (ix2 s k) fun b => by
    match b with
    | ⟨0, _⟩ => rfl
    | ⟨1, _⟩ => rfl

/-- The tile at (r, s): the inner product of row r of the left block and row s of the right block. -/
theorem k2_pay1_apply (x0 : Vec Ideal S2048x32 .bf16) (x1 : Vec Ideal S1024x32 .bf16) (r : Fin 2048) (s : Fin 1024) :
    k2_pay1 x0 x1 (ix2 r s) = ∑ k : Fin 32, x0 (ix2 r k) * x1 (ix2 s k) := by
  unfold k2_pay1
  simp only [shapeCast_self]
  simp only [matmul]
  rw [Ideal.matmul_constant_zero_apply, ← Equiv.sum_comp (ValueIdx.contrEquiv1 dot_S2048x32_S32x1024_S2048x1024_1_0_0_1_n_n 32 rfl rfl).symm]
  refine Finset.sum_congr rfl fun k _ => ?_
  have hk := ValueIdx.contrEquiv1_symm_val dot_S2048x32_S32x1024_S2048x1024_1_0_0_1_n_n 32 rfl rfl k
  have el : dot_S2048x32_S32x1024_S2048x1024_1_0_0_1_n_n.lhsIdx (ix2 r s) ((ValueIdx.contrEquiv1 dot_S2048x32_S32x1024_S2048x1024_1_0_0_1_n_n 32 rfl rfl).symm k) = ix2 r k := funext fun a => Fin.ext (by
    match a with
    | ⟨0, _⟩ => exact lhs_dot2_0 _ _
    | ⟨1, _⟩ => exact (lhs_dot2_1 _ _).trans hk)
  have er : dot_S2048x32_S32x1024_S2048x1024_1_0_0_1_n_n.rhsIdx (ix2 r s) ((ValueIdx.contrEquiv1 dot_S2048x32_S32x1024_S2048x1024_1_0_0_1_n_n 32 rfl rfl).symm k) = ix2 k s := funext fun a => Fin.ext (by
    match a with
    | ⟨0, _⟩ => exact (rhs_dot2_0 _ _).trans hk
    | ⟨1, _⟩ => exact rhs_dot2_1 _ _)
  rw [el, er, transpose_right_apply]

/-- One tile against the Gram matrix: if the left block is rows a·2048 + r and the right block rows b·1024 + s of one
    array Z, the tile's entry (r, s) is the Gram matrix of Z at (a·2048 + r, b·1024 + s): the same sum over the 32
    columns, term by term. -/
theorem tile_eq_gram (Z : S16384x32.Idx → EReal) (x0 : Vec Ideal S2048x32 .bf16) (x1 : Vec Ideal S1024x32 .bf16) (a b : Nat)
    (h0 : ∀ (y : S2048x32.Idx) (i : S16384x32.Idx), (i 0).val = a * 2048 + (y 0).val → (i 1).val = (y 1).val → x0 y = Z i)
    (h1 : ∀ (y : S1024x32.Idx) (i : S16384x32.Idx), (i 0).val = b * 1024 + (y 0).val → (i 1).val = (y 1).val → x1 y = Z i)
    (y : S2048x1024.Idx) (i : S16384x16384.Idx) (hi0 : (i 0).val = a * 2048 + (y 0).val) (hi1 : (i 1).val = b * 1024 + (y 1).val) :
    k2_pay1 x0 x1 y = Cert.Spec.gram Z i := by
  obtain ⟨r, s, rfl⟩ : ∃ (r : Fin 2048) (s : Fin 1024), y = ix2 r s := ⟨y 0, y 1, eq_ix2 y⟩
  rw [k2_pay1_apply]
  unfold Cert.Spec.gram
  refine Finset.sum_congr rfl fun k _ => ?_
  rw [h0 (ix2 r k) (ix2 (i 0) k) hi0 rfl, h1 (ix2 s k) (ix2 (i 1) k) hi1 rfl]

/-- The three printed index maps over the 8 × 16 grid: point t is (t / 16, t % 16); the left window sits at row block
    t / 16, the right window at row block t % 16, the output tile at (t / 16, t % 16). -/
theorem index_maps2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = t.val % 16 :=
  (by decide +kernel : ∀ t : Fin grid2.N, _)

/-- What point t writes back is tile t of the Gram matrix of the embedding as the region finds it. -/
theorem flushed2_eq (c : Dev nD) (t : Fin cfg2.N) :
    (dat2 (F := Ideal) V c).flushed 2 t = ((cfg2.win 2).blk t).view.read (Elt Ideal) (Cert.Spec.gram (V c main_v25)) := by
  show (cfg2.win 2).cut (grid2.coords t) ((dat2 (F := Ideal) V c).after 2 t) = _
  rw [after2_2, out2_eq]
  obtain ⟨e00, e01, e10, e11, e20, e21⟩ := index_maps2 t
  funext j
  show k2_pay1 (iblk2 V c 0 t) (iblk2 V c 1 t) ((cfg2.win 2).xinj (grid2.coords t) j)
    = Cert.Spec.gram (V c main_v25) (((cfg2.win 2).blk t).view.emb j)
  refine tile_eq_gram (V c main_v25) (iblk2 V c 0 t) (iblk2 V c 1 t) (t.val / 16) (t.val % 16) ?_ ?_
    ((cfg2.win 2).xinj (grid2.coords t) j) (((cfg2.win 2).blk t).view.emb j) ?_ ?_
  · intro y i hi0 hi1
    show V c main_v25 (((cfg2.win 0).blk t).view.emb y) = V c main_v25 i
    refine congrArg _ (funext fun a => Fin.ext ?_)
    match a with
    | ⟨0, _⟩ => show win2_0.index t (0 : Fin 2) * 2048 + 1 * (y 0).val = (i 0).val; omega
    | ⟨1, _⟩ => show win2_0.index t (1 : Fin 2) * 32 + 1 * (y 1).val = (i 1).val; omega
  · intro y i hi0 hi1
    show V c main_v25 (((cfg2.win 1).blk t).view.emb y) = V c main_v25 i
    refine congrArg _ (funext fun a => Fin.ext ?_)
    match a with
    | ⟨0, _⟩ => show win2_1.index t (0 : Fin 2) * 1024 + 1 * (y 0).val = (i 0).val; omega
    | ⟨1, _⟩ => show win2_1.index t (1 : Fin 2) * 32 + 1 * (y 1).val = (i 1).val; omega
  · show win2_2.index t (0 : Fin 2) * 2048 + 1 * (j 0).val = t.val / 16 * 2048 + (j 0).val; omega
  · show win2_2.index t (1 : Fin 2) * 1024 + 1 * (j 1).val = t.val % 16 * 1024 + (j 1).val; omega

/-- An index of the output array is in point t's tile iff each coordinate is in the tile's range on its axis. -/
theorem mem_blk2 (t : Fin cfg2.N) (i : S16384x16384.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v26).slice (win2_2.rect t)).set ↔ _
  rw [View.set_slice_whole, Rect.mem_set_unit]
  exact Iff.rfl

/-- The tiles cover the output array: entry (r, c) is in the tile of point (r / 2048) · 16 + c / 1024. -/
theorem cover2 (i : S16384x16384.Idx) :
    ∃ t : Fin cfg2.N, (cfg2.win 2).flush t = true ∧ i ∈ ((cfg2.win 2).blk t).view.set := by
  have hi0 : (i 0).val < 16384 := (i 0).isLt
  have hi1 : (i 1).val < 16384 := (i 1).isLt
  obtain ⟨t, ht⟩ : ∃ t : Fin cfg2.N, t.val = (i 0).val / 2048 * 16 + (i 1).val / 1024 :=
    ⟨⟨(i 0).val / 2048 * 16 + (i 1).val / 1024, by rw [show cfg2.N = 128 from N_2]; omega⟩, rfl⟩
  obtain ⟨-, -, -, -, e20, e21⟩ := index_maps2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

theorem arrAt2 (c : Dev nD) :
    (dat2 (F := Ideal) V c).arrAt 2 cfg2.N = Cert.Spec.gram (V c main_v25) :=
  (dat2 (F := Ideal) V c).arrAt_eq_of_cover 2 (Cert.Spec.gram (V c main_v25)) (fun t _ => flushed2_eq V c t) cover2

end Cert.KernelIdeal.HandValue

end
-- ==== Proof.KI.Chain.lean ====
/-
  The kernel's result as one function of the arguments, at the ideal values: reading the run's last valuation at the
  result array back through the three pallas_calls and the two host stretches gives the Gram matrix of the embedding
  of the aggregated hidden activations: each host stretch's results are its operations' composed term of the valuation
  it starts from, each pallas_call's output array is its layer of the arrays it finds, and an array no item writes is
  the launch memory's.
-/
import proofs.«128521_j20864951123973_1_alg».proof.Proof.KI.Run
import proofs.«128521_j20864951123973_1_alg».proof.Proof.KI.Val0
import proofs.«128521_j20864951123973_1_alg».proof.Proof.KI.Val1
import proofs.«128521_j20864951123973_1_alg».proof.Proof.KI.Val2
import proofs.«128521_j20864951123973_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

/-- The neighbour sum over 256-wide rows, exactly as the kernel's first host stretch prints it. -/
def aggK256 (x : FVec Ideal S16384x256 .f32) (src dst : (⟨S524288, .i32⟩ : BufTy).Contents (Elt Ideal)) : FVec Ideal S16384x256 .f32 :=
  Host.scatterAdd (F := Ideal) scatter_S16384x256_S524288x1_S524288x256_1_0_0_1
    (broadcastInDim S16384x256 ![] bcast_S_S16384x256 (constant (F := Ideal) S_ .f32 0x00000000#32))
    (broadcastInDim S524288x1 ![0] bcast_S524288_S524288x1_0 dst)
    (Host.gather gather_S16384x256_S524288x1_S524288x256_1_0_n_n_0_1_1256 x
      (broadcastInDim S524288x1 ![0] bcast_S524288_S524288x1_0
        (select (cmpi .slt src (broadcastInDim S524288 ![] bcast_S_S524288 (constantI S_ 32 0#32)))
          (addi src (broadcastInDim S524288 ![] bcast_S_S524288 (constantI S_ 32 16384#32))) src)))

/-- The neighbour sum over 128-wide rows, exactly as the kernel's second host stretch prints it. -/
def aggK128 (x : FVec Ideal S16384x128 .f32) (src dst : (⟨S524288, .i32⟩ : BufTy).Contents (Elt Ideal)) : FVec Ideal S16384x128 .f32 :=
  Host.scatterAdd (F := Ideal) scatter_S16384x128_S524288x1_S524288x128_1_0_0_1
    (broadcastInDim S16384x128 ![] bcast_S_S16384x128 (constant (F := Ideal) S_ .f32 0x00000000#32))
    (broadcastInDim S524288x1 ![0] bcast_S524288_S524288x1_0 dst)
    (Host.gather gather_S16384x128_S524288x1_S524288x128_1_0_n_n_0_1_1128 x
      (broadcastInDim S524288x1 ![0] bcast_S524288_S524288x1_0
        (select (cmpi .slt src (broadcastInDim S524288 ![] bcast_S_S524288 (constantI S_ 32 0#32)))
          (addi src (broadcastInDim S524288 ![] bcast_S_S524288 (constantI S_ 32 16384#32))) src)))

section Reads

variable (m : (ℓ : Loc nD τ sig) → Buf (Elt Ideal) ℓ) (c : Dev nD)

/-! ### The first host stretch, read from the launch memory -/

/-- After the first host stretch the aggregated features' array holds the neighbour sum of the arguments. -/
theorem W1_v9 : (W1 m c main_v9 : FVec Ideal S16384x256 .f32)
    = aggK256 (m ((c.tc : Thread nD τ).loc main_arg0)) (m ((c.tc : Thread nD τ).loc main_arg1)) (m ((c.tc : Thread nD τ).loc main_arg2)) := by
  show StableHlo.after hostOps0 (W0 m c) (Proc.devRef .tc main_v9) = _
  after_results
  rfl

/-- The first layer's weights cast to the narrow format: at the ideal values a change of format is the identity. -/
theorem W1_v10 : (W1 m c main_v10 : (⟨S256x128, .bf16⟩ : BufTy).Contents (Elt Ideal)) = m ((c.tc : Thread nD τ).loc main_arg3) := by
  show StableHlo.after hostOps0 (W0 m c) (Proc.devRef .tc main_v10) = _
  after_results
  rfl

/-- The first layer's bias as a one-row array: row 0, column j holds the bias at j. -/
theorem W1_v11 : (fun j : S128.Idx => (W1 m c main_v11 : (⟨S1x128, .f32⟩ : BufTy).Contents (Elt Ideal)) (ix2 0 (j 0)))
    = m ((c.tc : Thread nD τ).loc main_arg4) := by
  have e : (W1 m c main_v11 : (⟨S1x128, .f32⟩ : BufTy).Contents (Elt Ideal))
      = shapeCast S1x128 (m ((c.tc : Thread nD τ).loc main_arg4)) shapeCasts_S128_S1x128 := by
    show StableHlo.after hostOps0 (W0 m c) (Proc.devRef .tc main_v11) = _
    after_results
    rfl
  funext j
  rw [e]
  exact (shapeCast_a_1a_apply _ shapeCasts_S128_S1x128 0 (j 0)).trans (congrArg _ (eq_ix1 j).symm)

/-! ### The arguments and the hidden array between the two stretches -/

theorem W2_arg (b : Ref sig .tc) (h0 : b ∉ hostOps0_W) (h12 : b ≠ main_v12) :
    W2 m c b = m ((c.tc : Thread nD τ).loc b) :=
  (W2_of_ne m c b h12).trans ((W1_of m c b h0).trans rfl)

/-! ### The second host stretch, read from the contents the first layer leaves -/

/-- After the second host stretch the aggregated hidden features' array holds the neighbour sum of the hidden array. -/
theorem W3_v22 : (W3 m c main_v22 : FVec Ideal S16384x128 .f32)
    = aggK128 (hid m c) (m ((c.tc : Thread nD τ).loc main_arg1)) (m ((c.tc : Thread nD τ).loc main_arg2)) := by
  have e : (W3 m c main_v22 : FVec Ideal S16384x128 .f32)
      = aggK128 (W2 m c main_v12) (W2 m c main_arg1) (W2 m c main_arg2) := by
    show StableHlo.after hostOps1 (W2 m c) (Proc.devRef .tc main_v22) = _
    after_results
    rfl
  rw [e, W2_out, W2_arg m c main_arg1 (by decide) (by decide), W2_arg m c main_arg2 (by decide) (by decide)]

/-- The second layer's weights cast to the narrow format. -/
theorem W3_v23 : (W3 m c main_v23 : (⟨S128x32, .bf16⟩ : BufTy).Contents (Elt Ideal)) = m ((c.tc : Thread nD τ).loc main_arg5) := by
  have e : (W3 m c main_v23 : (⟨S128x32, .bf16⟩ : BufTy).Contents (Elt Ideal)) = W2 m c main_arg5 := by
    show StableHlo.after hostOps1 (W2 m c) (Proc.devRef .tc main_v23) = _
    after_results
    rfl
  rw [e, W2_arg m c main_arg5 (by decide) (by decide)]

/-- The second layer's bias as a one-row array. -/
theorem W3_v24 : (fun j : S32.Idx => (W3 m c main_v24 : (⟨S1x32, .f32⟩ : BufTy).Contents (Elt Ideal)) (ix2 0 (j 0)))
    = m ((c.tc : Thread nD τ).loc main_arg6) := by
  have e : (W3 m c main_v24 : (⟨S1x32, .f32⟩ : BufTy).Contents (Elt Ideal))
      = shapeCast S1x32 (W2 m c main_arg6) shapeCasts_S32_S1x32 := by
    show StableHlo.after hostOps1 (W2 m c) (Proc.devRef .tc main_v24) = _
    after_results
    rfl
  funext j
  rw [e, W2_arg m c main_arg6 (by decide) (by decide)]
  exact (shapeCast_a_1a_apply _ shapeCasts_S32_S1x32 0 (j 0)).trans (congrArg _ (eq_ix1 j).symm)

/-- The dropout mask is an argument no operation writes. -/
theorem W3_arg7 : W3 m c main_arg7 = m ((c.tc : Thread nD τ).loc main_arg7) :=
  (W3_of m c main_arg7 (by decide)).trans (W2_arg m c main_arg7 (by decide) (by decide))

/-! ### The three layers -/

theorem hid_eq : hid m c = Cert.Spec.hidden
    (aggK256 (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) := by
  unfold hid
  rw [arrAt0 (ofVal (W1 m)) c]
  show Cert.Spec.hidden (W1 m c main_v9) (W1 m c main_v10) (fun j => W1 m c main_v11 (ix2 0 (j 0))) = _
  rw [W1_v9, W1_v10, W1_v11]

theorem emb_eq : emb m c = Cert.Spec.embed
    (aggK128 (hid m c) (m ((c.tc : Thread nD τ).loc main_arg1)) (m ((c.tc : Thread nD τ).loc main_arg2)))
    (m ((c.tc : Thread nD τ).loc main_arg5)) (m ((c.tc : Thread nD τ).loc main_arg6)) (m ((c.tc : Thread nD τ).loc main_arg7)) := by
  unfold emb
  rw [arrAt1 (ofVal (W3 m)) c]
  show Cert.Spec.embed (W3 m c main_v22) (W3 m c main_v23) (fun j => W3 m c main_v24 (ix2 0 (j 0))) (W3 m c main_arg7) = _
  rw [W3_v22, W3_v23, W3_v24, W3_arg7]

end Reads

theorem kernel_result_eq (m : (ℓ : Loc nD τ sig) → Buf (Elt Ideal) ℓ) (c : Dev nD) :
    adj (F := Ideal) m c
      = Cert.Spec.gram (Cert.Spec.embed
          (aggK128 (Cert.Spec.hidden (aggK256 (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)))
            (m ((c.tc : Thread nD τ).loc main_arg1)) (m ((c.tc : Thread nD τ).loc main_arg2)))
          (m ((c.tc : Thread nD τ).loc main_arg5)) (m ((c.tc : Thread nD τ).loc main_arg6)) (m ((c.tc : Thread nD τ).loc main_arg7))) := by
  unfold adj
  rw [arrAt2 (ofVal (W4 m)) c]
  show Cert.Spec.gram (W4 m c main_v25) = _
  rw [W4_out, emb_eq, hid_eq]

end Cert.KernelIdeal.HandValue

end
-- ==== Proof.Ref.lean ====
/-
  The reference's result, read one operation at a time, is the composition of the three layers over the aggregated
  features.

  The two neighbour sums (a gather of the source rows followed by a scatter-add at the destination rows) are kept as
  the printed chains of operations, composed into one term each (`agg256`, `agg128`) and never opened. Between them the
  program is read at an index: a `dot_general` is the sum over its contracted coordinate, a bias broadcast
  [b] → [1,b] → [a,b] reads the bias at the column, the rectifier is the maximum with the broadcast zero, the dropout
  mask multiplies entry by entry, and the last product against the transpose is the Gram matrix of the rows.
-/
import proofs.«128521_j20864951123973_1_alg».proof.Proof.Gen.ReferenceIdeal.Run
import proofs.«128521_j20864951123973_1_alg».proof.Proof.Gen.ReferenceIdeal.Read
import proofs.«128521_j20864951123973_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The neighbour sum over the 256-wide features, as the reference prints it: a negative source index wraps by the
    number of nodes, the source rows are gathered, and they are added into a zero array at the destination rows. -/
def agg256 (x : FVec Ideal S16384x256 .f32) (src dst : (⟨S524288, .i32⟩ : BufTy).Contents (Elt Ideal)) :
    FVec Ideal S16384x256 .f32 :=
  Host.scatterAdd (F := Ideal) scatter_S16384x256_S524288x1_S524288x256_1_0_0_1
    (broadcastInDim S16384x256 ![] bcast_S_S16384x256 (constant (F := Ideal) S_ .f32 0x00000000#32))
    (broadcastInDim S524288x1 ![0] bcast_S524288_S524288x1_0 dst)
    (Host.gather gather_S16384x256_S524288x1_S524288x256_1_0_n_n_0_1_1256 x
      (broadcastInDim S524288x1 ![0] bcast_S524288_S524288x1_0
        (select (cmpi .slt src (broadcastInDim S524288 ![] bcast_S_S524288 (constantI S_ 32 0#32)))
          (addi src (broadcastInDim S524288 ![] bcast_S_S524288 (constantI S_ 32 16384#32))) src)))

/-- The same neighbour sum over the 128-wide hidden features. -/
def agg128 (x : FVec Ideal S16384x128 .f32) (src dst : (⟨S524288, .i32⟩ : BufTy).Contents (Elt Ideal)) :
    FVec Ideal S16384x128 .f32 :=
  Host.scatterAdd (F := Ideal) scatter_S16384x128_S524288x1_S524288x128_1_0_0_1
    (broadcastInDim S16384x128 ![] bcast_S_S16384x128 (constant (F := Ideal) S_ .f32 0x00000000#32))
    (broadcastInDim S524288x1 ![0] bcast_S524288_S524288x1_0 dst)
    (Host.gather gather_S16384x128_S524288x1_S524288x128_1_0_n_n_0_1_1128 x
      (broadcastInDim S524288x1 ![0] bcast_S524288_S524288x1_0
        (select (cmpi .slt src (broadcastInDim S524288 ![] bcast_S_S524288 (constantI S_ 32 0#32)))
          (addi src (broadcastInDim S524288 ![] bcast_S_S524288 (constantI S_ 32 16384#32))) src)))

section Indices

/-! The index functions of the generated read lemmas, as indices built from coordinates. -/

theorem lidx10 (i : S16384x128.Idx) (k : Fin 256) : Read.lidx_main_v10 i k = ix2 (i 0) k := by
  funext a; match a with | ⟨0, _⟩ => rfl | ⟨1, _⟩ => rfl
theorem ridx10 (i : S16384x128.Idx) (k : Fin 256) : Read.ridx_main_v10 i k = ix2 k (i 1) := by
  funext a; match a with | ⟨0, _⟩ => rfl | ⟨1, _⟩ => rfl
/-- The bias of the first layer, broadcast [128] → [1,128] → [16384,128], reads the bias at the column. -/
theorem bidx12 (i : S16384x128.Idx) : Read.idx_main_v11 (Read.idx_main_v12 i) = ix1 (i 1) := by
  funext a; match a with | ⟨0, _⟩ => rfl
theorem lidx25 (i : S16384x32.Idx) (k : Fin 128) : Read.lidx_main_v25 i k = ix2 (i 0) k := by
  funext a; match a with | ⟨0, _⟩ => rfl | ⟨1, _⟩ => rfl
theorem ridx25 (i : S16384x32.Idx) (k : Fin 128) : Read.ridx_main_v25 i k = ix2 k (i 1) := by
  funext a; match a with | ⟨0, _⟩ => rfl | ⟨1, _⟩ => rfl
/-- The bias of the second layer, broadcast [32] → [1,32] → [16384,32], reads the bias at the column. -/
theorem bidx27 (i : S16384x32.Idx) : Read.idx_main_v26 (Read.idx_main_v27 i) = ix1 (i 1) := by
  funext a; match a with | ⟨0, _⟩ => rfl
theorem lidx31 (i : S16384x16384.Idx) (k : Fin 32) : Read.lidx_main_v31 i k = ix2 (i 0) k := by
  funext a; match a with | ⟨0, _⟩ => rfl | ⟨1, _⟩ => rfl
/-- The right factor of the last product is the transpose: its entry (k, c) is entry (c, k) of the embedding. -/
theorem tidx31 (i : S16384x16384.Idx) (k : Fin 32) : Read.idx_main_v30 (Read.ridx_main_v31 i k) = ix2 (i 1) k := by
  funext a; match a with | ⟨0, _⟩ => rfl | ⟨1, _⟩ => rfl

end Indices

section Stages

variable (x0 : (⟨S16384x256, .f32⟩ : BufTy).Contents (Elt Ideal)) (x1 x2 : (⟨S524288, .i32⟩ : BufTy).Contents (Elt Ideal))
  (x3 : (⟨S256x128, .f32⟩ : BufTy).Contents (Elt Ideal)) (x4 : (⟨S128, .f32⟩ : BufTy).Contents (Elt Ideal))
  (x5 : (⟨S128x32, .f32⟩ : BufTy).Contents (Elt Ideal)) (x6 : (⟨S32, .f32⟩ : BufTy).Contents (Elt Ideal))
  (x7 : (⟨S16384x32, .f32⟩ : BufTy).Contents (Elt Ideal))

set_option maxRecDepth 8192 in
/-- The first scatter's result is the first neighbour sum of the arguments. -/
theorem v9_eq : Read.val_main_v9 (F := Ideal) x0 x1 x2 = agg256 x0 x1 x2 := rfl

/-- The rectified first layer, entry by entry: the contraction over the 256 features, plus the bias at the column,
    against the broadcast zero. -/
theorem v14_eq : Read.val_main_v14 (F := Ideal) x0 x1 x2 x3 x4 = Cert.Spec.hidden (agg256 x0 x1 x2) x3 x4 := by
  funext i
  rw [Read.val_main_v14_apply, Read.val_main_v13_apply, Read.val_main_v10_apply, Read.val_main_v12_apply,
    Read.val_main_v11_apply, Read.val_main_call0_v0_apply, Read.val_main_call0_cst_apply, v9_eq]
  simp only [lidx10, ridx10, bidx12, Ideal.maximumf_def, Ideal.addf_def, Ideal.ofBits_def, Ideal.ofBits_zero_f32]
  rfl

set_option maxRecDepth 8192 in
/-- The second scatter's result is the second neighbour sum, of the hidden features. -/
theorem v24_eq : Read.val_main_v24 (F := Ideal) x0 x1 x2 x3 x4
    = agg128 (Read.val_main_v14 (F := Ideal) x0 x1 x2 x3 x4) x1 x2 := rfl

/-- The second layer with its mask, entry by entry. -/
theorem v29_eq : Read.val_main_v29 (F := Ideal) x0 x1 x2 x3 x4 x5 x6 x7
    = Cert.Spec.embed (agg128 (Read.val_main_v14 (F := Ideal) x0 x1 x2 x3 x4) x1 x2) x5 x6 x7 := by
  funext i
  rw [Read.val_main_v29_apply, Read.val_main_v28_apply, Read.val_main_v25_apply, Read.val_main_v27_apply,
    Read.val_main_v26_apply, v24_eq]
  simp only [lidx25, ridx25, bidx27, Ideal.mulf_def, Ideal.addf_def]
  rfl

/-- The last product, of the embedding against its transpose, is the Gram matrix of the embedding's rows. -/
theorem v31_eq : Read.val_main_v31 (F := Ideal) x0 x1 x2 x3 x4 x5 x6 x7
    = Cert.Spec.gram (Read.val_main_v29 (F := Ideal) x0 x1 x2 x3 x4 x5 x6 x7) := by
  funext i
  rw [Read.val_main_v31_apply]
  unfold Cert.Spec.gram
  refine Finset.sum_congr rfl fun k _ => ?_
  rw [Read.val_main_v30_apply, lidx31, tidx31]
  rfl

end Stages

/-- The reference's result is the Gram matrix of the masked second layer over the neighbour sum of the rectified
    first layer over the neighbour sum of the features. -/
theorem result_eq (m : (ℓ : Loc nD τ sig) → Buf (Elt Ideal) ℓ) (c : Dev nD) :
    Cert.ReferenceIdeal.Value.res_out0 (F := Ideal) m c
      = Cert.Spec.gram (Cert.Spec.embed
          (agg128 (Cert.Spec.hidden
              (agg256 (m ((c.tc : Thread nD τ).loc main_arg0)) (m ((c.tc : Thread nD τ).loc main_arg1))
                (m ((c.tc : Thread nD τ).loc main_arg2)))
              (m ((c.tc : Thread nD τ).loc main_arg3)) (m ((c.tc : Thread nD τ).loc main_arg4)))
            (m ((c.tc : Thread nD τ).loc main_arg1)) (m ((c.tc : Thread nD τ).loc main_arg2)))
          (m ((c.tc : Thread nD τ).loc main_arg5)) (m ((c.tc : Thread nD τ).loc main_arg6))
          (m ((c.tc : Thread nD τ).loc main_arg7))) := by
  show Cert.ReferenceIdeal.Value.res_main_v31 (F := Ideal) m c = _
  rw [Read.val_main_v31_eq, v31_eq, v29_eq, v14_eq]

end Cert.ReferenceIdeal.RefValue

end
-- ==== Proof.lean ====
/-
  A two-layer graph auto-encoder: a Pallas kernel against its jnp reference, equal over the extended reals.

  Both programs aggregate the node features over the edges on the host (gather at the source index, sum-scatter at the
  destination index: the same two host operations, whatever the index arrays hold), then
      h   = relu (agg feat · W0 + b0)            hidden activations,  16384 × 128
      z   = (agg h · W1 + b1) ⊙ mask             embedding,           16384 × 32
      adj = z · zᵀ                               decoder,             16384 × 16384.
  The reference does each product as one whole matrix product. The kernel does h and z in eight row blocks of 2048 with
  the operands narrowed to bf16, and adj in 8 × 16 tiles of 2048 × 1024, each tile contracting all 32 columns at once.
  On the extended reals narrowing is the identity and a matrix product read at an entry is the same finite sum however
  its rows are tiled, so the three layers agree entry by entry (`Spec.hidden`, `Spec.embed`, `Spec.gram`) and the
  two programs' neighbour sums are one term; no law used here needs the inputs finite.

  The frames: the kernel's three pallas_calls run as segments of @main between its two host stretches, each entered from
  a known valuation of the unscoped buffers and left at the next; the decoder reads the embedding through two windows
  on one array, which the pipeline holds at two halves. The same text serves the word-level program and the idealized
  one. The reference has no kernel: its frame is its run with the result dropped.
-/
import proofs.«128521_j20864951123973_1_alg».proof.Defs
import proofs.«128521_j20864951123973_1_alg».proof.Proof.Gen.Kernel
import proofs.«128521_j20864951123973_1_alg».proof.Proof.Gen.KernelIdeal
import proofs.«128521_j20864951123973_1_alg».proof.Proof.Gen.ReferenceIdeal
import proofs.«128521_j20864951123973_1_alg».proof.Proof.Gen.Pre_finite_inputs
import proofs.«128521_j20864951123973_1_alg».proof.Proof.Gen.ReferenceIdeal.Run
import proofs.«128521_j20864951123973_1_alg».proof.Proof.K.Run
import proofs.«128521_j20864951123973_1_alg».proof.Proof.KI.Run
import proofs.«128521_j20864951123973_1_alg».proof.Proof.KI.Chain
import proofs.«128521_j20864951123973_1_alg».proof.Proof.Ref
import Idealize.ShloMosaic.Adequacy
import Idealize.ShloMosaic.Init

noncomputable section

namespace Cert.Proof

open Idealize.ShloMosaic Idealize.ShloMosaic.TcCoe Idealize.SL.Sem

/-! ## The three frames -/

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-! ## The two programs' neighbour sums are one term -/

/-- The kernel's first host stretch and the reference's first thirteen operations are the same composed term: the
    two programs' records of the gather and the scatter have the same fields. -/
theorem agg256_eq (x : FVec Ideal Cert.KernelIdeal.S16384x256 .f32)
    (src dst : (⟨Cert.KernelIdeal.S524288, .i32⟩ : BufTy).Contents (Elt Ideal)) :
    Cert.KernelIdeal.HandValue.aggK256 x src dst = Cert.ReferenceIdeal.RefValue.agg256 x src dst := rfl

theorem agg128_eq (x : FVec Ideal Cert.KernelIdeal.S16384x128 .f32)
    (src dst : (⟨Cert.KernelIdeal.S524288, .i32⟩ : BufTy).Contents (Elt Ideal)) :
    Cert.KernelIdeal.HandValue.aggK128 x src dst = Cert.ReferenceIdeal.RefValue.agg128 x src dst := rfl

/-! ## Equal results -/

/-- At the ideal values the kernel's result array ends at the Gram matrix of the embedding of the aggregated hidden
    activations (the run, then `kernel_result_eq`), and so does the reference's (its generated run, then
    `result_eq`), of arguments that agree. -/
theorem algebraic : Cert.algebraic_KernelIdeal_ReferenceIdeal := by
  intro m ρ m' ρ' _ hagree
  refine ⟨fun c => Cert.KernelIdeal.Hand.adj (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  show _ = Cert.KernelIdeal.Hand.adj (F := Ideal) m c
  rw [Cert.KernelIdeal.HandValue.kernel_result_eq m c, agg256_eq, agg128_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
